-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S2000x256 : Shape := ⟨2, ![2000, 256]⟩
abbrev S2000x64 : Shape := ⟨2, ![2000, 64]⟩
abbrev S3300000x64 : Shape := ⟨2, ![3300000, 64]⟩
abbrev S1x64 : Shape := ⟨2, ![1, 64]⟩
abbrev S100000x32 : Shape := ⟨2, ![100000, 32]⟩
abbrev S2000x32 : Shape := ⟨2, ![2000, 32]⟩
abbrev S3300000x32 : Shape := ⟨2, ![3300000, 32]⟩
abbrev S1x32 : Shape := ⟨2, ![1, 32]⟩
abbrev S1x1 : Shape := ⟨2, ![1, 1]⟩
abbrev S100000x1 : Shape := ⟨2, ![100000, 1]⟩
abbrev S2000x1 : Shape := ⟨2, ![2000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x32, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x32, .f32⟩
  | .hbm, ⟨76, _⟩ => ⟨S3300000x1, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S1x1, .f32⟩
  | .hbm, ⟨85, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x256_S256x64_S2000x64_1_0_0_1_n_n_wf : DotDims.WF S2000x256 S256x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x32_S2000x32_1_0_0_1_n_n_wf : DotDims.WF S2000x64 S64x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S2000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x32, .f32⟩
  | 117 => ⟨S3300000x1, .f32⟩
  | 118 => ⟨S3300000x32, .f32⟩
  | 119 => ⟨S3300000x32, .f32⟩
  | 120 => ⟨S_, .f32⟩
  | 121 => ⟨S100000x32, .f32⟩
  | 122 => ⟨S3300000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x256, .f32⟩

abbrev hbmTy0_1 (i : Nat) : BufTy := match i % 128 with
  | 0 => ⟨S100000x32, .f32⟩
  | 1 => ⟨S100000x32, .f32⟩
  | 2 => ⟨S100000x1, .f32⟩
  | 3 => ⟨S1x1, .f32⟩
  | 4 => ⟨S100000x1, .f32⟩
  | 5 => ⟨S100000x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S_, .f32⟩
  | 12 => ⟨S100000x1, .f32⟩
  | 13 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The three dense layers of the two-layer graph convolution, each as ONE function of whole arrays.

  With `Â = D^{-1/2}(A + I)D^{-1/2}` the normalised adjacency of the edge list, the network is
    out = σ( relu( Â · (relu( Â · (x W₁) + b₁ ) W₂) + b₂ ) · w + β ),   σ(z) = 1 / (1 + e^{-z}).
  The products with `Â` (a gather of rows, a scaling, a scatter-add) are carried elsewhere as opaque functions of the
  edge list; here are the dense parts between them:
    `dense0 x W`        = x W                                  (rows of 256 features to 64)
    `dense1 a b W`      = relu(a + b) W                        (64 to 32; `b` a single row, added to every row)
    `dense2 a b w β`    = σ(relu(a + b) w + β)                 (32 to 1; `β` a single entry)
  spelt with the host operations of the reference program, so that the reference's own term is a composition of them.
-/
import proofs.«131150_j62569083568519_1_alg».proof.Proof.Gen.ReferenceIdeal
import Idealize.ShloMosaic.PureOps

noncomputable section

namespace Cert.GcnSpec

open Cert.ReferenceIdeal Cert.ReferenceIdeal.Gen Idealize.ShloMosaic

variable {F : FTy → Type} [FloatOps F]

/-- `x W`: entry `(n, j)` is `∑ k, x (n, k) · W (k, j)` over the 256 input features. -/
def dense0 (x : (⟨S100000x256, .f32⟩ : BufTy).Contents (Elt F)) (w : (⟨S256x64, .f32⟩ : BufTy).Contents (Elt F)) :
    (⟨S100000x64, .f32⟩ : BufTy).Contents (Elt F) :=
  Host.dotGeneral dot_S100000x256_S256x64_S100000x64_1_0_0_1_n_n none x w

/-- `relu(a + b) W`: entry `(n, j)` is `∑ k, max (a (n, k) + b (0, k)) 0 · W (k, j)` over the 64 hidden features. -/
def dense1 (a : (⟨S100000x64, .f32⟩ : BufTy).Contents (Elt F)) (b : (⟨S1x64, .f32⟩ : BufTy).Contents (Elt F))
    (w : (⟨S64x32, .f32⟩ : BufTy).Contents (Elt F)) : (⟨S100000x32, .f32⟩ : BufTy).Contents (Elt F) :=
  Host.dotGeneral dot_S100000x64_S64x32_S100000x32_1_0_0_1_n_n none
    (maximumf (addf a (broadcastInDim S100000x64 ![0, 1] bcast_S1x64_S100000x64_0_1 b))
      (broadcastInDim S100000x64 ![] bcast_S_S100000x64 (constant S_ .f32 0x00000000#32))) w

/-- `σ(relu(a + b) w + β)`: entry `(n, 0)` is the logistic function of `∑ k, max (a (n, k) + b (0, k)) 0 · w (k, 0) + β (0, 0)`,
    the logistic function spelt `1 / (1 + exp (-z))`. -/
def dense2 (a : (⟨S100000x32, .f32⟩ : BufTy).Contents (Elt F)) (b : (⟨S1x32, .f32⟩ : BufTy).Contents (Elt F))
    (w : (⟨S32x1, .f32⟩ : BufTy).Contents (Elt F)) (β : (⟨S1x1, .f32⟩ : BufTy).Contents (Elt F)) :
    (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf
        (Host.dotGeneral dot_S100000x32_S32x1_S100000x1_1_0_0_1_n_n none
          (maximumf (addf a (broadcastInDim S100000x32 ![0, 1] bcast_S1x32_S100000x32_0_1 b))
            (broadcastInDim S100000x32 ![] bcast_S_S100000x32 (constant S_ .f32 0x00000000#32))) w)
        (broadcastInDim S100000x1 ![0, 1] bcast_S1x1_S100000x1_0_1 β)))))

end Cert.GcnSpec

end
-- ==== Proof.HostK.lean ====
/-
  The host side of the kernel program, as named functions of what each stretch reads.

  From the edge list `e` (row 0 the sources, row 1 the targets, 3,200,000 edges) the program appends one self-loop per
  node to both rows (`srcIdx`, `dstIdx`: 3,300,000 entries), counts each node's incoming entries (`deg`: a scatter-add
  of ones over the targets), takes `dinv = deg^{-1/2}` where the count is positive and 0 elsewhere, and gives every
  entry the weight `norm = dinv[src] · dinv[dst]`. An index word that is negative has the node count added before
  it is used for a gather (`wrap`). The product with the normalised adjacency is then, for a matrix `h` of node rows,
  `agg h e`: gather the source rows, scale each by its entry's weight, scatter-add into the target rows of a zero matrix.
  A bias vector enters a kernel as a single row (`row64`, `row32`, `row1`: a reshape).
-/
import proofs.«131150_j62569083568519_1_alg».proof.Proof.Gen.KernelIdeal
import Idealize.ShloMosaic.PureOps

noncomputable section

namespace Cert.KernelIdeal.HostK

open Cert.KernelIdeal Cert.KernelIdeal.Gen Idealize.ShloMosaic

variable {F : FTy → Type} [FloatOps F]

/-- The sources of the 3,200,000 edges followed by the 100,000 node numbers (the self-loops). -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The targets of the edges followed by the node numbers. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index vector as a gather takes it: a negative word has the node count 100000 added; one index per row. -/
def wrap (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The target indices as a scatter takes them: one index per row, as they are. -/
def col (v : (⟨S3300000, .i32⟩ : BufTy).Contents (Elt F)) : (⟨S3300000x1, .i32⟩ : BufTy).Contents (Elt F) :=
  broadcastInDim S3300000x1 ![0] bcast_S3300000_S3300000x1_0 v

/-- Each node's number of incoming entries, self-loop included: ones scatter-added over the targets. -/
def deg (e : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (col (dstIdx e))
    (broadcastInDim S3300000 ![] bcast_S_S3300000 (constant S_ .f32 0x3F800000#32))

/-- `deg^{-1/2}` where the count is positive, 0 elsewhere. -/
def dinv (e : (⟨S2x3200000, .i32⟩ : BufTy).Contents (Elt F)) : (⟨S100000, .f32⟩ : BufTy).Contents (Elt F) :=
  select (cmpf (F := F) .ogt (deg e) (broadcastInDim S100000 ![] bcast_S_S100000 (constant S_ .f32 0x00000000#32)))
    (Host.rsqrt (deg e))
    (broadcastInDim S100000 ![] bcast_S_S100000 (id (constant S_ .f32 0x00000000#32)))

/-- The weight of each entry: `dinv` at its source times `dinv` at its target. -/
def norm (e : (⟨S2x3200000, .i32⟩ : BufTy).Contents (Elt F)) : (⟨S3300000, .f32⟩ : BufTy).Contents (Elt F) :=
  mulf (Host.gather gather_S100000_S3300000x1_S3300000_n_0_n_n_0_1_1 (dinv e) (wrap (srcIdx e)))
    (Host.gather gather_S100000_S3300000x1_S3300000_n_0_n_n_0_1_1 (dinv e) (wrap (dstIdx e)))

/-- The product of the normalised adjacency with a matrix of 64-feature node rows. -/
def agg64 (h : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (col (dstIdx e))
    (mulf (Host.gather gather_S100000x64_S3300000x1_S3300000x64_1_0_n_n_0_1_164 h (wrap (srcIdx e)))
      (broadcastInDim S3300000x64 ![0, 1] bcast_S3300000x1_S3300000x64_0_1
        (broadcastInDim S3300000x1 ![0] bcast_S3300000_S3300000x1_0 (norm e))))

/-- The product of the normalised adjacency with a matrix of 32-feature node rows. -/
def agg32 (h : (⟨S100000x32, .f32⟩ : BufTy).Contents (Elt F)) (e : (⟨S2x3200000, .i32⟩ : BufTy).Contents (Elt F)) :
    (⟨S100000x32, .f32⟩ : BufTy).Contents (Elt F) :=
  Host.scatterAdd scatter_S100000x32_S3300000x1_S3300000x32_1_0_0_1
    (broadcastInDim S100000x32 ![] bcast_S_S100000x32 (constant S_ .f32 0x00000000#32))
    (col (dstIdx e))
    (mulf (Host.gather gather_S100000x32_S3300000x1_S3300000x32_1_0_n_n_0_1_132 h (wrap (srcIdx e)))
      (broadcastInDim S3300000x32 ![0, 1] bcast_S3300000x1_S3300000x32_0_1
        (broadcastInDim S3300000x1 ![0] bcast_S3300000_S3300000x1_0 (norm e))))

/-- A 64-vector as a single row. -/
def row64 (b : (⟨S64, .f32⟩ : BufTy).Contents (Elt F)) : (⟨S1x64, .f32⟩ : BufTy).Contents (Elt F) :=
  shapeCast _ b shapeCasts_S64_S1x64
/-- A 32-vector as a single row. -/
def row32 (b : (⟨S32, .f32⟩ : BufTy).Contents (Elt F)) : (⟨S1x32, .f32⟩ : BufTy).Contents (Elt F) :=
  shapeCast _ b shapeCasts_S32_S1x32
/-- A 1-vector as a single entry. -/
def row1 (b : (⟨S1, .f32⟩ : BufTy).Contents (Elt F)) : (⟨S1x1, .f32⟩ : BufTy).Contents (Elt F) :=
  shapeCast _ b shapeCasts_S1_S1x1

end Cert.KernelIdeal.HostK

end
-- ==== Proof.RefSide.lean ====
/-
  The reference program's result, as the same composition of the dense layers and the products with the normalised
  adjacency that the kernel program's result is.

  The reference computes the index vectors, the degrees and the edge weights twice (once per layer), from the same edge
  list by the same operations, so both copies are the one function of the edge list the kernel program computes once;
  it adds each bias as a broadcast row where the kernel program reshapes the bias to a row first: the same row.
-/
import proofs.«131150_j62569083568519_1_alg».proof.Proof.RefRead
import proofs.«131150_j62569083568519_1_alg».proof.Proof.Spec
import proofs.«131150_j62569083568519_1_alg».proof.Proof.HostK
import Idealize.ShloMosaic.Lib.Pipeline.Value
import Idealize.ShloMosaic.Lib.ValueIdx
import Idealize.ShloMosaic.PureOps.Ideal

noncomputable section

namespace Cert.GcnSpec.RefSide

open Idealize.ShloMosaic

variable {F : FTy → Type} [FloatOps F]

open Cert.ReferenceIdeal.PRead in
/-- A 64-vector reshaped to one row is its broadcast along the second axis: both read entry `(0, j)` at `j`. -/
theorem row64_eq (b : (⟨Cert.ReferenceIdeal.S64, .f32⟩ : BufTy).Contents (Elt F)) :
    Cert.KernelIdeal.HostK.row64 (F := F) b = val_main_v44 (F := F) b := by
  funext i
  rw [val_main_v44_apply]
  unfold Cert.KernelIdeal.HostK.row64
  exact shapeCast_apply b _ i (idx_main_v44 i)
    (by rewrite [Shape.rowMajor_val_one, Shape.rowMajor_val_two]
        have h0 : (i 0).val < 1 := (i 0).isLt
        show (i 1).val = (i 0).val * 64 + (i 1).val
        omega)

open Cert.ReferenceIdeal.PRead in
/-- The same for a 32-vector. -/
theorem row32_eq (b : (⟨Cert.ReferenceIdeal.S32, .f32⟩ : BufTy).Contents (Elt F)) :
    Cert.KernelIdeal.HostK.row32 (F := F) b = val_main_v88 (F := F) b := by
  funext i
  rw [val_main_v88_apply]
  unfold Cert.KernelIdeal.HostK.row32
  exact shapeCast_apply b _ i (idx_main_v88 i)
    (by rewrite [Shape.rowMajor_val_one, Shape.rowMajor_val_two]
        have h0 : (i 0).val < 1 := (i 0).isLt
        show (i 1).val = (i 0).val * 32 + (i 1).val
        omega)

open Cert.ReferenceIdeal.PRead in
/-- The same for a single entry. -/
theorem row1_eq (b : (⟨Cert.ReferenceIdeal.S1, .f32⟩ : BufTy).Contents (Elt F)) :
    Cert.KernelIdeal.HostK.row1 (F := F) b = val_main_v93 (F := F) b := by
  funext i
  rw [val_main_v93_apply]
  unfold Cert.KernelIdeal.HostK.row1
  exact shapeCast_apply b _ i (idx_main_v93 i)
    (by rewrite [Shape.rowMajor_val_one, Shape.rowMajor_val_two]
        have h0 : (i 0).val < 1 := (i 0).isLt
        have h1 : (i 1).val < 1 := (i 1).isLt
        show 0 = (i 0).val * 1 + (i 1).val
        omega)

section edges
open Cert.ReferenceIdeal.PRead

variable (x1 : (⟨Cert.ReferenceIdeal.S2x3200000, .i32⟩ : BufTy).Contents (Elt F))

/-! The index vectors: the sources (targets) of the edges followed by the node numbers; both copies. -/

theorem v6_eq : val_main_v6 (F := F) x1 = Cert.KernelIdeal.HostK.srcIdx x1 := by
  unfold val_main_v6 val_main_v1 val_main_v0 val_main_v5 Cert.KernelIdeal.HostK.srcIdx
  rfl

theorem v7_eq : val_main_v7 (F := F) x1 = Cert.KernelIdeal.HostK.dstIdx x1 := by
  unfold val_main_v7 val_main_v3 val_main_v2 val_main_v5 Cert.KernelIdeal.HostK.dstIdx
  rfl

theorem v50_eq : val_main_v50 (F := F) x1 = Cert.KernelIdeal.HostK.srcIdx x1 := by
  unfold val_main_v50 val_main_v1 val_main_v0 val_main_v49 Cert.KernelIdeal.HostK.srcIdx
  rfl

theorem v51_eq : val_main_v51 (F := F) x1 = Cert.KernelIdeal.HostK.dstIdx x1 := by
  unfold val_main_v51 val_main_v3 val_main_v2 val_main_v49 Cert.KernelIdeal.HostK.dstIdx
  rfl

end edges

section weights
open Cert.ReferenceIdeal.PRead

variable (x1 : (⟨Cert.ReferenceIdeal.S2x3200000, .i32⟩ : BufTy).Contents (Elt F))

/-! The degrees: ones scatter-added over the targets; both copies. -/

theorem v11_eq : val_main_v11 (F := F) x1 = Cert.KernelIdeal.HostK.deg x1 := by
  unfold val_main_v11 val_main_v9 val_main_cst_0 val_main_v10 val_main_v8 val_main_cst
  rw [v7_eq]
  unfold Cert.KernelIdeal.HostK.deg Cert.KernelIdeal.HostK.col
  rfl

theorem v55_eq : val_main_v55 (F := F) x1 = Cert.KernelIdeal.HostK.deg x1 := by
  unfold val_main_v55 val_main_v53 val_main_cst_10 val_main_v54 val_main_v52 val_main_cst_9
  rw [v51_eq]
  unfold Cert.KernelIdeal.HostK.deg Cert.KernelIdeal.HostK.col
  rfl

/-! The inverse square roots of the degrees, 0 where the degree is not positive; both copies. -/

theorem v15_eq : val_main_v15 (F := F) x1 = Cert.KernelIdeal.HostK.dinv x1 := by
  unfold val_main_v15 val_main_v13 val_main_v14 val_main_v12 val_main_cst_1 val_main_call0_v1 val_main_call0_v0
    val_main_cst_2
  rw [v11_eq]
  unfold Cert.KernelIdeal.HostK.dinv
  rfl

theorem v59_eq : val_main_v59 (F := F) x1 = Cert.KernelIdeal.HostK.dinv x1 := by
  unfold val_main_v59 val_main_v57 val_main_v58 val_main_v56 val_main_cst_11 val_main_call2_v1 val_main_call2_v0
    val_main_cst_12
  rw [v55_eq]
  unfold Cert.KernelIdeal.HostK.dinv
  rfl

/-! The index columns the gathers take (a negative word has the node count added): of the sources and of the
    targets, for the weights and for each layer's rows. -/

theorem v21_eq : val_main_v21 (F := F) x1 = Cert.KernelIdeal.HostK.wrap (Cert.KernelIdeal.HostK.srcIdx x1) := by
  unfold val_main_v21 val_main_v20 val_main_v17 val_main_v19 val_main_v16 val_main_v18 val_main_c val_main_c_3
  rw [v6_eq]
  unfold Cert.KernelIdeal.HostK.wrap
  rfl

theorem v28_eq : val_main_v28 (F := F) x1 = Cert.KernelIdeal.HostK.wrap (Cert.KernelIdeal.HostK.dstIdx x1) := by
  unfold val_main_v28 val_main_v27 val_main_v24 val_main_v26 val_main_v23 val_main_v25 val_main_c_4 val_main_c_5
  rw [v7_eq]
  unfold Cert.KernelIdeal.HostK.wrap
  rfl

theorem v36_eq : val_main_v36 (F := F) x1 = Cert.KernelIdeal.HostK.wrap (Cert.KernelIdeal.HostK.srcIdx x1) := by
  unfold val_main_v36 val_main_v35 val_main_v32 val_main_v34 val_main_v31 val_main_v33 val_main_c_6 val_main_c_7
  rw [v6_eq]
  unfold Cert.KernelIdeal.HostK.wrap
  rfl

theorem v65_eq : val_main_v65 (F := F) x1 = Cert.KernelIdeal.HostK.wrap (Cert.KernelIdeal.HostK.srcIdx x1) := by
  unfold val_main_v65 val_main_v64 val_main_v61 val_main_v63 val_main_v60 val_main_v62 val_main_c_13 val_main_c_14
  rw [v50_eq]
  unfold Cert.KernelIdeal.HostK.wrap
  rfl

theorem v72_eq : val_main_v72 (F := F) x1 = Cert.KernelIdeal.HostK.wrap (Cert.KernelIdeal.HostK.dstIdx x1) := by
  unfold val_main_v72 val_main_v71 val_main_v68 val_main_v70 val_main_v67 val_main_v69 val_main_c_15 val_main_c_16
  rw [v51_eq]
  unfold Cert.KernelIdeal.HostK.wrap
  rfl

theorem v80_eq : val_main_v80 (F := F) x1 = Cert.KernelIdeal.HostK.wrap (Cert.KernelIdeal.HostK.srcIdx x1) := by
  unfold val_main_v80 val_main_v79 val_main_v76 val_main_v78 val_main_v75 val_main_v77 val_main_c_17 val_main_c_18
  rw [v50_eq]
  unfold Cert.KernelIdeal.HostK.wrap
  rfl

/-! The edge weights: the inverse square root at the source times that at the target; both copies. -/

theorem v30_eq : val_main_v30 (F := F) x1 = Cert.KernelIdeal.HostK.norm x1 := by
  unfold val_main_v30 val_main_v22 val_main_v29
  rw [v15_eq, v21_eq, v28_eq]
  unfold Cert.KernelIdeal.HostK.norm
  rfl

theorem v74_eq : val_main_v74 (F := F) x1 = Cert.KernelIdeal.HostK.norm x1 := by
  unfold val_main_v74 val_main_v66 val_main_v73
  rw [v59_eq, v65_eq, v72_eq]
  unfold Cert.KernelIdeal.HostK.norm
  rfl

end weights

section layers
open Cert.ReferenceIdeal.PRead

variable (x0 : (⟨Cert.ReferenceIdeal.S100000x256, .f32⟩ : BufTy).Contents (Elt F))
  (x1 : (⟨Cert.ReferenceIdeal.S2x3200000, .i32⟩ : BufTy).Contents (Elt F))
  (x2 : (⟨Cert.ReferenceIdeal.S256x64, .f32⟩ : BufTy).Contents (Elt F))
  (x3 : (⟨Cert.ReferenceIdeal.S64, .f32⟩ : BufTy).Contents (Elt F))
  (x4 : (⟨Cert.ReferenceIdeal.S64x32, .f32⟩ : BufTy).Contents (Elt F))
  (x5 : (⟨Cert.ReferenceIdeal.S32, .f32⟩ : BufTy).Contents (Elt F))
  (x6 : (⟨Cert.ReferenceIdeal.S32x1, .f32⟩ : BufTy).Contents (Elt F))
  (x7 : (⟨Cert.ReferenceIdeal.S1, .f32⟩ : BufTy).Contents (Elt F))

/-- The first product with the normalised adjacency: gather the source rows of `x W₁`, scale each by its entry's
    weight, scatter-add into the target rows of a zero matrix. -/
theorem v43_eq : val_main_v43 (F := F) x0 x1 x2
    = Cert.KernelIdeal.HostK.agg64 (Cert.GcnSpec.dense0 (F := F) x0 x2) x1 := by
  unfold val_main_v43 val_main_v41 val_main_cst_8 val_main_v42 val_main_v40 val_main_v37 val_main_v39 val_main_v38
    val_main_v4
  rw [v7_eq, v36_eq, v30_eq]
  unfold Cert.KernelIdeal.HostK.agg64 Cert.KernelIdeal.HostK.col Cert.GcnSpec.dense0
  rfl

/-- The second dense layer: the bias row added to every row, the rectifier, the product with `W₂`. -/
theorem v48_eq : val_main_v48 (F := F) x0 x1 x2 x3 x4
    = Cert.GcnSpec.dense1 (F := F) (val_main_v43 (F := F) x0 x1 x2) (val_main_v44 (F := F) x3) x4 := by
  unfold val_main_v48 val_main_v47 val_main_v46 val_main_v45 val_main_call1_v0 val_main_call1_cst Cert.GcnSpec.dense1
  rfl

/-- The second product with the normalised adjacency, on rows of 32 features. -/
theorem v87_eq : val_main_v87 (F := F) x0 x1 x2 x3 x4
    = Cert.KernelIdeal.HostK.agg32 (val_main_v48 (F := F) x0 x1 x2 x3 x4) x1 := by
  unfold val_main_v87 val_main_v85 val_main_cst_19 val_main_v86 val_main_v84 val_main_v81 val_main_v83 val_main_v82
  rw [v51_eq, v80_eq, v74_eq]
  unfold Cert.KernelIdeal.HostK.agg32 Cert.KernelIdeal.HostK.col
  rfl

/-- The last dense layer: bias row, rectifier, the product with `w`, the entry `β` added, the logistic function. -/
theorem v101_eq : val_main_v101 (F := F) x0 x1 x2 x3 x4 x5 x6 x7
    = Cert.GcnSpec.dense2 (F := F) (val_main_v87 (F := F) x0 x1 x2 x3 x4) (val_main_v88 (F := F) x5) x6
        (val_main_v93 (F := F) x7) := by
  unfold val_main_v101 val_main_v100 val_main_cst_21 val_main_v99 val_main_v98 val_main_cst_20 val_main_v97
    val_main_v96 val_main_v95 val_main_v94 val_main_v92 val_main_v91 val_main_call3_v0 val_main_call3_cst
    val_main_v90 val_main_v89 Cert.GcnSpec.dense2
  rfl

end layers

theorem ref_eq
    (x0 : (⟨Cert.ReferenceIdeal.S100000x256, .f32⟩ : BufTy).Contents (Elt F))
    (x1 : (⟨Cert.ReferenceIdeal.S2x3200000, .i32⟩ : BufTy).Contents (Elt F))
    (x2 : (⟨Cert.ReferenceIdeal.S256x64, .f32⟩ : BufTy).Contents (Elt F))
    (x3 : (⟨Cert.ReferenceIdeal.S64, .f32⟩ : BufTy).Contents (Elt F))
    (x4 : (⟨Cert.ReferenceIdeal.S64x32, .f32⟩ : BufTy).Contents (Elt F))
    (x5 : (⟨Cert.ReferenceIdeal.S32, .f32⟩ : BufTy).Contents (Elt F))
    (x6 : (⟨Cert.ReferenceIdeal.S32x1, .f32⟩ : BufTy).Contents (Elt F))
    (x7 : (⟨Cert.ReferenceIdeal.S1, .f32⟩ : BufTy).Contents (Elt F)) :
    Cert.ReferenceIdeal.PRead.val_main_v101 (F := F) x0 x1 x2 x3 x4 x5 x6 x7
      = Cert.GcnSpec.dense2 (F := F)
          (Cert.KernelIdeal.HostK.agg32 (Cert.GcnSpec.dense1 (F := F)
            (Cert.KernelIdeal.HostK.agg64 (Cert.GcnSpec.dense0 (F := F) x0 x2) x1)
            (Cert.KernelIdeal.HostK.row64 x3) x4) x1)
          (Cert.KernelIdeal.HostK.row32 x5) x6 (Cert.KernelIdeal.HostK.row1 x7) := by
  rw [v101_eq, v87_eq, v48_eq, v43_eq, row64_eq, row32_eq, row1_eq]

end Cert.GcnSpec.RefSide

end
-- ==== Proof.KernelValue.lean ====
/-
  The kernel program's result buffer at the end of its run, read back to the launch memory.

  The program runs: host stretch (index vectors, degrees, edge weights) · region 0 (x W₁) · host stretch (Â ·, one row of b₁) ·
  region 1 (relu(· + b₁) W₂) · host stretch (Â ·, one row of b₂ and of β) · region 2 (σ(relu(· + b₂) w + β)).
  `Gen.W8` holds every buffer's contents after region 2; at the result `main_v61` that is region 2's output array, a
  function of what region 2 found, and so on back to the arguments. Given what each region's output array holds as a
  function of the arrays that region found (`h0`, `h1`, `h2`), the result is the composition below.
-/
import proofs.«131150_j62569083568519_1_alg».proof.Proof.Gen.KernelIdeal.Frame
import proofs.«131150_j62569083568519_1_alg».proof.Proof.Spec
import proofs.«131150_j62569083568519_1_alg».proof.Proof.HostK
import Idealize.ShloMosaic.Lib.Pipeline.Value
import Idealize.ShloMosaic.Lib.StableHlo.Run
import Idealize.ShloMosaic.PureOps.Ideal

noncomputable section

namespace Cert.KernelIdeal.Boundary

open Cert.KernelIdeal Cert.KernelIdeal.Gen Idealize.ShloMosaic Idealize.ShloMosaic.TcCoe Idealize.SL.Sem
open Idealize.ShloMosaic.Pipeline (Dat)

/-! ## Buffers a host stretch does not write

Each stretch writes a known list of buffers; any other TensorCore buffer holds after it what it held before. -/

section Host

variable {F : FTy → Type} [FloatOps F]

/-- One operation's single result buffer lies in a list of references that holds it. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem keep0 {b : Ref sig .tc} (V : Valuation τ sig (Elt F))
    (hb : b ∉ [main_v0, main_v1, main_v2, main_v3, main_v4, main_v5, main_v6, main_cst, main_v7, main_cst_0, main_v8, main_v9,
      main_v10, main_cst_1, main_v11, main_v12, main_v13, main_cst_2]) :
    StableHlo.after (hostOps0 (F := F)) V (Proc.devRef .tc b) = V (Proc.devRef .tc b) :=
  StableHlo.after_of_writes_sub _ V (by
    simp only [hostOps0, List.Forall, StableHlo.nullary_writes, StableHlo.unary_writes, StableHlo.binary_writes,
      StableHlo.ternary_writes, StableHlo.reshape_writes]
    repeat' apply And.intro
    all_goals exact single_sub_of_mem (by decide)) hb

theorem keep0_1 {b : Ref sig .tc} (V : Valuation τ sig (Elt F))
    (hb : b ∉ [main_call0_v0, main_call0_v1, main_v14]) :
    StableHlo.after (hostOps0_1 (F := F)) V (Proc.devRef .tc b) = V (Proc.devRef .tc b) :=
  StableHlo.after_of_writes_sub _ V (by
    simp only [hostOps0_1, List.Forall, StableHlo.unary_writes, StableHlo.ternary_writes]
    repeat' apply And.intro
    all_goals exact single_sub_of_mem (by decide)) hb

theorem keep0_2 {b : Ref sig .tc} (V : Valuation τ sig (Elt F))
    (hb : b ∉ [main_c, main_v15, main_v16, main_c_3, main_v17, main_v18, main_v19, main_v20, main_v21, main_c_4, main_v22,
      main_v23, main_c_5, main_v24, main_v25, main_v26, main_v27, main_v28, main_v29]) :
    StableHlo.after (hostOps0_2 (F := F)) V (Proc.devRef .tc b) = V (Proc.devRef .tc b) :=
  StableHlo.after_of_writes_sub _ V (by
    simp only [hostOps0_2, List.Forall, StableHlo.nullary_writes, StableHlo.unary_writes, StableHlo.binary_writes,
      StableHlo.ternary_writes, StableHlo.reshape_writes]
    repeat' apply And.intro
    all_goals exact single_sub_of_mem (by decide)) hb

theorem keep1 {b : Ref sig .tc} (V : Valuation τ sig (Elt F))
    (hb : b ∉ [main_c_6, main_v31, main_v32, main_c_7, main_v33, main_v34, main_v35, main_v36, main_v37, main_v38, main_v39,
      main_v40, main_cst_8, main_v41, main_v42, main_v43, main_v44]) :
    StableHlo.after (hostOps1 (F := F)) V (Proc.devRef .tc b) = V (Proc.devRef .tc b) :=
  StableHlo.after_of_writes_sub _ V (by
    simp only [hostOps1, List.Forall, StableHlo.nullary_writes, StableHlo.unary_writes, StableHlo.binary_writes,
      StableHlo.ternary_writes, StableHlo.reshape_writes]
    repeat' apply And.intro
    all_goals exact single_sub_of_mem (by decide)) hb

theorem keep2 {b : Ref sig .tc} (V : Valuation τ sig (Elt F))
    (hb : b ∉ [main_c_9, main_v46, main_v47, main_c_10, main_v48, main_v49, main_v50, main_v51, main_v52, main_v53, main_v54,
      main_v55, main_cst_11, main_v56, main_v57, main_v58, main_v59, main_v60]) :
    StableHlo.after (hostOps2 (F := F)) V (Proc.devRef .tc b) = V (Proc.devRef .tc b) :=
  StableHlo.after_of_writes_sub _ V (by
    simp only [hostOps2, List.Forall, StableHlo.nullary_writes, StableHlo.unary_writes, StableHlo.binary_writes,
      StableHlo.ternary_writes, StableHlo.reshape_writes]
    repeat' apply And.intro
    all_goals exact single_sub_of_mem (by decide)) hb

/-! ## What each host stretch computes, from any contents

`V` is what the TensorCore's buffers hold when the stretch starts. -/

section Stretch

variable (V : Valuation τ sig (Elt F))

theorem H0_v5 : StableHlo.after (hostOps0 (F := F)) V (Proc.devRef .tc main_v5) = HostK.srcIdx (V (Proc.devRef .tc main_arg1)) := by
  simp only [hostOps0]
  after_results
  rfl

theorem H0_v6 : StableHlo.after (hostOps0 (F := F)) V (Proc.devRef .tc main_v6) = HostK.dstIdx (V (Proc.devRef .tc main_arg1)) := by
  simp only [hostOps0]
  after_results
  rfl

theorem H0_v12 : StableHlo.after (hostOps0 (F := F)) V (Proc.devRef .tc main_v12)
    = cmpf (F := F) .ogt (HostK.deg (V (Proc.devRef .tc main_arg1)))
        (broadcastInDim S100000 ![] bcast_S_S100000 (constant S_ .f32 0x00000000#32)) := by
  simp only [hostOps0]
  after_results
  rfl

theorem H0_v13 : StableHlo.after (hostOps0 (F := F)) V (Proc.devRef .tc main_v13) = Host.rsqrt (HostK.deg (V (Proc.devRef .tc main_arg1))) := by
  simp only [hostOps0]
  after_results
  rfl

theorem H0_cst_2 : StableHlo.after (hostOps0 (F := F)) V (Proc.devRef .tc main_cst_2)
    = (constant S_ .f32 0x00000000#32 : (⟨S_, .f32⟩ : BufTy).Contents (Elt F)) := by
  simp only [hostOps0]
  after_results

/-- The selection: the inverse square root where the comparison holds, the constant elsewhere. -/
theorem H01_v14 : StableHlo.after (hostOps0_1 (F := F)) V (Proc.devRef .tc main_v14)
    = (select (V (Proc.devRef .tc main_v12) : (⟨S100000, .i1⟩ : BufTy).Contents (Elt F)) (V (Proc.devRef .tc main_v13))
        (broadcastInDim S100000 ![] bcast_S_S100000 (id (V (Proc.devRef .tc main_cst_2) : (⟨S_, .f32⟩ : BufTy).Contents (Elt F))))
        : (⟨S100000, .f32⟩ : BufTy).Contents (Elt F)) := by
  simp only [hostOps0_1]
  after_results
  rfl

/-- The weights: the selected values gathered at the sources times the same at the targets. -/
theorem H02_v29 : StableHlo.after (hostOps0_2 (F := F)) V (Proc.devRef .tc main_v29)
    = mulf (Host.gather gather_S100000_S3300000x1_S3300000_n_0_n_n_0_1_1 (V (Proc.devRef .tc main_v14)) (HostK.wrap (V (Proc.devRef .tc main_v5))))
        (Host.gather gather_S100000_S3300000x1_S3300000_n_0_n_n_0_1_1 (V (Proc.devRef .tc main_v14)) (HostK.wrap (V (Proc.devRef .tc main_v6)))) := by
  simp only [hostOps0_2]
  after_results_simp
  rfl

end Stretch

section Stretch

variable (V : Valuation τ sig (Elt F))

/-- The second stretch's product with the normalised adjacency, over what it finds at region 0's output, the two
    index vectors and the weights. -/
theorem H1_v43 : StableHlo.after (hostOps1 (F := F)) V (Proc.devRef .tc main_v43)
    = Host.scatterAdd scatter_S100000x64_S3300000x1_S3300000x64_1_0_0_1
        (broadcastInDim S100000x64 ![] bcast_S_S100000x64 (constant S_ .f32 0x00000000#32))
        (HostK.col (V (Proc.devRef .tc main_v6)))
        (mulf (Host.gather gather_S100000x64_S3300000x1_S3300000x64_1_0_n_n_0_1_164 (V (Proc.devRef .tc main_v30)) (HostK.wrap (V (Proc.devRef .tc main_v5))))
          (broadcastInDim S3300000x64 ![0, 1] bcast_S3300000x1_S3300000x64_0_1
            (broadcastInDim S3300000x1 ![0] bcast_S3300000_S3300000x1_0 (V (Proc.devRef .tc main_v29))))) := by
  simp only [hostOps1]
  after_results_simp
  rfl

theorem H1_v44 : StableHlo.after (hostOps1 (F := F)) V (Proc.devRef .tc main_v44) = HostK.row64 (V (Proc.devRef .tc main_arg3)) := by
  simp only [hostOps1]
  after_results
  rfl

/-- The third stretch's product, over region 1's output. -/
theorem H2_v58 : StableHlo.after (hostOps2 (F := F)) V (Proc.devRef .tc main_v58)
    = Host.scatterAdd scatter_S100000x32_S3300000x1_S3300000x32_1_0_0_1
        (broadcastInDim S100000x32 ![] bcast_S_S100000x32 (constant S_ .f32 0x00000000#32))
        (HostK.col (V (Proc.devRef .tc main_v6)))
        (mulf (Host.gather gather_S100000x32_S3300000x1_S3300000x32_1_0_n_n_0_1_132 (V (Proc.devRef .tc main_v45)) (HostK.wrap (V (Proc.devRef .tc main_v5))))
          (broadcastInDim S3300000x32 ![0, 1] bcast_S3300000x1_S3300000x32_0_1
            (broadcastInDim S3300000x1 ![0] bcast_S3300000_S3300000x1_0 (V (Proc.devRef .tc main_v29))))) := by
  simp only [hostOps2]
  after_results_simp
  rfl

theorem H2_v59 : StableHlo.after (hostOps2 (F := F)) V (Proc.devRef .tc main_v59) = HostK.row32 (V (Proc.devRef .tc main_arg5)) := by
  simp only [hostOps2]
  after_results
  rfl

theorem H2_v60 : StableHlo.after (hostOps2 (F := F)) V (Proc.devRef .tc main_v60) = HostK.row1 (V (Proc.devRef .tc main_arg7)) := by
  simp only [hostOps2]
  after_results
  rfl

end Stretch

/-! ## The buffers at each boundary of the run, read back to the launch memory -/

section Run

variable (m : (ℓ : Loc nD τ sig) → Buf (Elt F) ℓ) (ρ : Dev nD → PrngReg) (c : Dev nD)

/-- A buffer none of the first stretch's three steps writes holds at region 0's entry what the launch gave it. -/
theorem W3_launch {b : Ref sig .tc}
    (h0 : b ∉ [main_v0, main_v1, main_v2, main_v3, main_v4, main_v5, main_v6, main_cst, main_v7, main_cst_0, main_v8, main_v9,
      main_v10, main_cst_1, main_v11, main_v12, main_v13, main_cst_2])
    (h1 : b ∉ [main_call0_v0, main_call0_v1, main_v14])
    (h2 : b ∉ [main_c, main_v15, main_v16, main_c_3, main_v17, main_v18, main_v19, main_v20, main_v21, main_c_4, main_v22,
      main_v23, main_c_5, main_v24, main_v25, main_v26, main_v27, main_v28, main_v29]) :
    W3 m ρ c (Proc.devRef .tc b) = m ((c : Thread nD τ).loc b) :=
  (keep0_2 (W2 m ρ c) h2).trans ((keep0_1 (W1 m ρ c) h1).trans (keep0 (W0 m ρ c) h0))

theorem W1_v5 : W1 m ρ c (Proc.devRef .tc main_v5) = HostK.srcIdx (m ((c : Thread nD τ).loc main_arg1)) := H0_v5 (W0 m ρ c)
theorem W1_v6 : W1 m ρ c (Proc.devRef .tc main_v6) = HostK.dstIdx (m ((c : Thread nD τ).loc main_arg1)) := H0_v6 (W0 m ρ c)
theorem W1_v12 : W1 m ρ c (Proc.devRef .tc main_v12)
    = cmpf (F := F) .ogt (HostK.deg (m ((c : Thread nD τ).loc main_arg1)))
        (broadcastInDim S100000 ![] bcast_S_S100000 (constant S_ .f32 0x00000000#32)) := H0_v12 (W0 m ρ c)
theorem W1_v13 : W1 m ρ c (Proc.devRef .tc main_v13) = Host.rsqrt (HostK.deg (m ((c : Thread nD τ).loc main_arg1))) := H0_v13 (W0 m ρ c)
theorem W1_cst_2 : W1 m ρ c (Proc.devRef .tc main_cst_2)
    = (constant S_ .f32 0x00000000#32 : (⟨S_, .f32⟩ : BufTy).Contents (Elt F)) := H0_cst_2 (W0 m ρ c)

theorem W2_v14 : W2 m ρ c (Proc.devRef .tc main_v14) = HostK.dinv (m ((c : Thread nD τ).loc main_arg1)) :=
  (H01_v14 (W1 m ρ c)).trans (by rw [W1_v12, W1_v13, W1_cst_2]; rfl)
theorem W2_v5 : W2 m ρ c (Proc.devRef .tc main_v5) = HostK.srcIdx (m ((c : Thread nD τ).loc main_arg1)) :=
  (keep0_1 (W1 m ρ c) (by decide)).trans (W1_v5 m ρ c)
theorem W2_v6 : W2 m ρ c (Proc.devRef .tc main_v6) = HostK.dstIdx (m ((c : Thread nD τ).loc main_arg1)) :=
  (keep0_1 (W1 m ρ c) (by decide)).trans (W1_v6 m ρ c)

theorem W3_v29 : W3 m ρ c (Proc.devRef .tc main_v29) = HostK.norm (m ((c : Thread nD τ).loc main_arg1)) :=
  (H02_v29 (W2 m ρ c)).trans (by rw [W2_v14, W2_v5, W2_v6]; rfl)
theorem W3_v5 : W3 m ρ c (Proc.devRef .tc main_v5) = HostK.srcIdx (m ((c : Thread nD τ).loc main_arg1)) :=
  (keep0_2 (W2 m ρ c) (by decide)).trans (W2_v5 m ρ c)
theorem W3_v6 : W3 m ρ c (Proc.devRef .tc main_v6) = HostK.dstIdx (m ((c : Thread nD τ).loc main_arg1)) :=
  (keep0_2 (W2 m ρ c) (by decide)).trans (W2_v6 m ρ c)

end Run

/-! ## Across the regions

What each region's output array holds, as a function of the arrays the region found, is taken as given. -/

section Regions

variable (m : (ℓ : Loc nD τ sig) → Buf (Elt F) ℓ) (ρ : Dev nD → PrngReg) (c : Dev nD)

/-- Region 0's output array is `x W₁` of the two arrays it found. -/
abbrev Out0 (F : FTy → Type) [FloatOps F] : Prop :=
  ∀ (V : (c : Dev nD) → (b : Ref sig .tc) → Buf (Elt F) ((c : Thread nD τ).loc b)) (c : Dev nD),
    (dat0 (F := F) V c).arrAt 2 cfg0.N = Cert.GcnSpec.dense0 (F := F) (V c main_arg0) (V c main_arg2)
/-- Region 1's output array is `relu(a + b₁) W₂` of the three arrays it found. -/
abbrev Out1 (F : FTy → Type) [FloatOps F] : Prop :=
  ∀ (V : (c : Dev nD) → (b : Ref sig .tc) → Buf (Elt F) ((c : Thread nD τ).loc b)) (c : Dev nD),
    (dat1 (F := F) V c).arrAt 3 cfg1.N = Cert.GcnSpec.dense1 (F := F) (V c main_v43) (V c main_v44) (V c main_arg4)
/-- Region 2's output array is `σ(relu(a + b₂) w + β)` of the four arrays it found. -/
abbrev Out2 (F : FTy → Type) [FloatOps F] : Prop :=
  ∀ (V : (c : Dev nD) → (b : Ref sig .tc) → Buf (Elt F) ((c : Thread nD τ).loc b)) (c : Dev nD),
    (dat2 (F := F) V c).arrAt 4 cfg2.N = Cert.GcnSpec.dense2 (F := F) (V c main_v58) (V c main_v59) (V c main_arg6) (V c main_v60)

/-- A buffer that is no array of region 0 and that the second stretch does not write: at region 1's entry as at region 0's. -/
theorem W5_eq_W3 {b : Ref sig .tc} (hr0 : ∀ w, Pipeline.arrRef spec0 w ≠ b)
    (hk1 : b ∉ [main_c_6, main_v31, main_v32, main_c_7, main_v33, main_v34, main_v35, main_v36, main_v37, main_v38, main_v39,
      main_v40, main_cst_8, main_v41, main_v42, main_v43, main_v44]) :
    W5 m ρ c (Proc.devRef .tc b) = W3 m ρ c (Proc.devRef .tc b) :=
  (keep1 (W4 m ρ c) hk1).trans (W4_of_ne m ρ c b hr0)

/-- The same and no array of region 1: at region 1's exit as at region 0's entry. -/
theorem W6_eq_W3 {b : Ref sig .tc} (hr0 : ∀ w, Pipeline.arrRef spec0 w ≠ b)
    (hk1 : b ∉ [main_c_6, main_v31, main_v32, main_c_7, main_v33, main_v34, main_v35, main_v36, main_v37, main_v38, main_v39,
      main_v40, main_cst_8, main_v41, main_v42, main_v43, main_v44])
    (hr1 : ∀ w, Pipeline.arrRef spec1 w ≠ b) :
    W6 m ρ c (Proc.devRef .tc b) = W3 m ρ c (Proc.devRef .tc b) :=
  (W6_of_ne m ρ c b hr1).trans (W5_eq_W3 m ρ c hr0 hk1)

/-- Region 0's output: `x W₁` of the launch's `x` and `W₁`. -/
theorem W4_v30 (h0 : Out0 F) : W4 m ρ c (Proc.devRef .tc main_v30)
    = Cert.GcnSpec.dense0 (F := F) (m ((c : Thread nD τ).loc main_arg0)) (m ((c : Thread nD τ).loc main_arg2)) :=
  (W4_arr m ρ c 2).trans ((h0 (V3 m ρ) c).trans (congrArg₂ (Cert.GcnSpec.dense0 (F := F))
    (W3_launch m ρ c (b := main_arg0) (by decide) (by decide) (by decide))
    (W3_launch m ρ c (b := main_arg2) (by decide) (by decide) (by decide))))

/-- Region 1's first input: the normalised adjacency times region 0's output. -/
theorem W5_v43 (h0 : Out0 F) : W5 m ρ c (Proc.devRef .tc main_v43)
    = HostK.agg64 (Cert.GcnSpec.dense0 (F := F) (m ((c : Thread nD τ).loc main_arg0)) (m ((c : Thread nD τ).loc main_arg2)))
        (m ((c : Thread nD τ).loc main_arg1)) :=
  (H1_v43 (W4 m ρ c)).trans (by
    rw [W4_v30 m ρ c h0, W4_of_ne m ρ c main_v5 (by decide), W4_of_ne m ρ c main_v6 (by decide),
      W4_of_ne m ρ c main_v29 (by decide), W3_v5, W3_v6, W3_v29]
    rfl)

/-- Region 1's second input: `b₁` as a row. -/
theorem W5_v44 : W5 m ρ c (Proc.devRef .tc main_v44) = HostK.row64 (m ((c : Thread nD τ).loc main_arg3)) :=
  (H1_v44 (W4 m ρ c)).trans (congrArg HostK.row64
    ((W4_of_ne m ρ c main_arg3 (by decide)).trans (W3_launch m ρ c (b := main_arg3) (by decide) (by decide) (by decide))))

/-- Region 1's output: `relu(· + b₁) W₂` of that product, `b₁`'s row and the launch's `W₂`. -/
theorem W6_v45 (h0 : Out0 F) (h1 : Out1 F) : W6 m ρ c (Proc.devRef .tc main_v45)
    = Cert.GcnSpec.dense1 (F := F)
        (HostK.agg64 (Cert.GcnSpec.dense0 (F := F) (m ((c : Thread nD τ).loc main_arg0)) (m ((c : Thread nD τ).loc main_arg2)))
          (m ((c : Thread nD τ).loc main_arg1)))
        (HostK.row64 (m ((c : Thread nD τ).loc main_arg3))) (m ((c : Thread nD τ).loc main_arg4)) :=
  (W6_arr m ρ c 3).trans ((h1 (V5 m ρ) c).trans (by
    rw [show V5 m ρ c main_v43 = _ from W5_v43 m ρ c h0, show V5 m ρ c main_v44 = _ from W5_v44 m ρ c,
      show V5 m ρ c main_arg4 = _ from (W5_eq_W3 m ρ c (b := main_arg4) (by decide) (by decide)).trans
        (W3_launch m ρ c (b := main_arg4) (by decide) (by decide) (by decide))]))

/-- Region 2's first input: the normalised adjacency times region 1's output. -/
theorem W7_v58 (h0 : Out0 F) (h1 : Out1 F) : W7 m ρ c (Proc.devRef .tc main_v58)
    = HostK.agg32 (Cert.GcnSpec.dense1 (F := F)
        (HostK.agg64 (Cert.GcnSpec.dense0 (F := F) (m ((c : Thread nD τ).loc main_arg0)) (m ((c : Thread nD τ).loc main_arg2)))
          (m ((c : Thread nD τ).loc main_arg1)))
        (HostK.row64 (m ((c : Thread nD τ).loc main_arg3))) (m ((c : Thread nD τ).loc main_arg4)))
        (m ((c : Thread nD τ).loc main_arg1)) :=
  (H2_v58 (W6 m ρ c)).trans (by
    rw [W6_v45 m ρ c h0 h1, W6_eq_W3 m ρ c (b := main_v5) (by decide) (by decide) (by decide),
      W6_eq_W3 m ρ c (b := main_v6) (by decide) (by decide) (by decide),
      W6_eq_W3 m ρ c (b := main_v29) (by decide) (by decide) (by decide), W3_v5, W3_v6, W3_v29]
    rfl)

/-- Region 2's second input: `b₂` as a row. -/
theorem W7_v59 : W7 m ρ c (Proc.devRef .tc main_v59) = HostK.row32 (m ((c : Thread nD τ).loc main_arg5)) :=
  (H2_v59 (W6 m ρ c)).trans (congrArg HostK.row32
    ((W6_eq_W3 m ρ c (b := main_arg5) (by decide) (by decide) (by decide)).trans
      (W3_launch m ρ c (b := main_arg5) (by decide) (by decide) (by decide))))

/-- Region 2's fourth input: `β` as a single entry. -/
theorem W7_v60 : W7 m ρ c (Proc.devRef .tc main_v60) = HostK.row1 (m ((c : Thread nD τ).loc main_arg7)) :=
  (H2_v60 (W6 m ρ c)).trans (congrArg HostK.row1
    ((W6_eq_W3 m ρ c (b := main_arg7) (by decide) (by decide) (by decide)).trans
      (W3_launch m ρ c (b := main_arg7) (by decide) (by decide) (by decide))))

/-- Region 2's third input: the launch's `w`. -/
theorem W7_arg6 : W7 m ρ c (Proc.devRef .tc main_arg6) = m ((c : Thread nD τ).loc main_arg6) :=
  (keep2 (W6 m ρ c) (by decide)).trans ((W6_eq_W3 m ρ c (b := main_arg6) (by decide) (by decide) (by decide)).trans
    (W3_launch m ρ c (b := main_arg6) (by decide) (by decide) (by decide)))

/-- The result buffer after region 2, at any float model. -/
theorem W8_v61 (h0 : Out0 F) (h1 : Out1 F) (h2 : Out2 F) : W8 m ρ c (Proc.devRef .tc main_v61)
    = Cert.GcnSpec.dense2 (F := F)
        (HostK.agg32 (Cert.GcnSpec.dense1 (F := F)
          (HostK.agg64 (Cert.GcnSpec.dense0 (F := F) (m ((c : Thread nD τ).loc main_arg0)) (m ((c : Thread nD τ).loc main_arg2)))
            (m ((c : Thread nD τ).loc main_arg1)))
          (HostK.row64 (m ((c : Thread nD τ).loc main_arg3))) (m ((c : Thread nD τ).loc main_arg4)))
          (m ((c : Thread nD τ).loc main_arg1)))
        (HostK.row32 (m ((c : Thread nD τ).loc main_arg5))) (m ((c : Thread nD τ).loc main_arg6))
        (HostK.row1 (m ((c : Thread nD τ).loc main_arg7))) :=
  (W8_arr m ρ c 4).trans ((h2 (V7 m ρ) c).trans (by
    rw [show V7 m ρ c main_v58 = _ from W7_v58 m ρ c h0 h1, show V7 m ρ c main_v59 = _ from W7_v59 m ρ c,
      show V7 m ρ c main_arg6 = _ from W7_arg6 m ρ c, show V7 m ρ c main_v60 = _ from W7_v60 m ρ c]))

end Regions

end Host

theorem W8_out (m : (ℓ : Loc nD τ sig) → Buf (Elt Ideal) ℓ) (ρ : Dev nD → PrngReg) (c : Dev nD)
    (h0 : ∀ (V : (c : Dev nD) → (b : Ref sig .tc) → Buf (Elt Ideal) ((c : Thread nD τ).loc b)) (c : Dev nD),
      (dat0 (F := Ideal) V c).arrAt 2 cfg0.N = Cert.GcnSpec.dense0 (F := Ideal) (V c main_arg0) (V c main_arg2))
    (h1 : ∀ (V : (c : Dev nD) → (b : Ref sig .tc) → Buf (Elt Ideal) ((c : Thread nD τ).loc b)) (c : Dev nD),
      (dat1 (F := Ideal) V c).arrAt 3 cfg1.N = Cert.GcnSpec.dense1 (F := Ideal) (V c main_v43) (V c main_v44) (V c main_arg4))
    (h2 : ∀ (V : (c : Dev nD) → (b : Ref sig .tc) → Buf (Elt Ideal) ((c : Thread nD τ).loc b)) (c : Dev nD),
      (dat2 (F := Ideal) V c).arrAt 4 cfg2.N = Cert.GcnSpec.dense2 (F := Ideal) (V c main_v58) (V c main_v59) (V c main_arg6) (V c main_v60)) :
    W8 (F := Ideal) m ρ c (Proc.devRef .tc main_v61)
      = Cert.GcnSpec.dense2 (F := Ideal)
          (HostK.agg32 (Cert.GcnSpec.dense1 (F := Ideal)
            (HostK.agg64 (Cert.GcnSpec.dense0 (F := Ideal) (m ((c : Thread nD τ).loc main_arg0)) (m ((c : Thread nD τ).loc main_arg2)))
              (m ((c : Thread nD τ).loc main_arg1)))
            (HostK.row64 (m ((c : Thread nD τ).loc main_arg3))) (m ((c : Thread nD τ).loc main_arg4)))
            (m ((c : Thread nD τ).loc main_arg1)))
          (HostK.row32 (m ((c : Thread nD τ).loc main_arg5))) (m ((c : Thread nD τ).loc main_arg6))
          (HostK.row1 (m ((c : Thread nD τ).loc main_arg7))) := by
  exact W8_v61 (F := Ideal) m ρ c h0 h1 h2

end Cert.KernelIdeal.Boundary

end
-- ==== Proof.Region0Mat.lean ====
/-
  The matrix unit's product of a staged block of rows with a staged matrix, into a zero accumulator, read at an index at the
  ideal instance (floats are extended reals, operations exact): the accumulator contributes 0, and what is left is the sum
  over the one contracted axis of the operands' products. The four facts before it say which operand entries the product at
  an output index and a contraction index reads: row of the output and the contraction index on the left, the contraction
  index and column of the output on the right.
  (Region 0: a 2000 × 256 block with a 256 × 64 matrix.)
-/
import proofs.«131150_j62569083568519_1_alg».proof.Proof.Gen.KernelIdeal
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.ValueIdx

theorem lhs_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Into a zero accumulator the product at `(p, q)` is the sum over the 256 contracted columns. -/
theorem mat_apply (y : FVec Ideal S2000x256 .bf16) (w : FVec Ideal S256x64 .bf16) (p : Fin 2000) (q : Fin 64) :
    matmul (F := Ideal) dot_S2000x256_S256x64_S2000x64_1_0_0_1_n_n none y w (constant S2000x64 .f32 0x00000000#32) (ix2 p q)
      = ∑ k : Fin 256, y (ix2 p k) * w (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_0 _ _).trans hk
    | ⟨1, _⟩ => exact rhs_1 _ _)
  rw [el, er]

end Cert.KernelIdeal.Region0

end
-- ==== Proof.SpecApply.lean ====
/-
  The dense layers read at an index, at the ideal instance (floats are extended reals, operations exact).

  For a node `n` and an output feature `j`:
    dense0 x W (n, j)      = ∑ k < 256, x (n, k) · W (k, j)
    dense1 a b W (n, j)    = ∑ k < 64,  max (a (n, k) + b (0, k)) 0 · W (k, j)
    dense2 a b w β (n, 0)  = 1 / (1 + exp (-(∑ k < 32, max (a (n, k) + b (0, k)) 0 · w (k, 0) + β (0, 0))))
  A host `dot_general` with one contracted axis is the sum over that axis of the operands' products; a `broadcast_in_dim`
  of a row reads the row's entry at the column; of a scalar, the scalar.
-/
import proofs.«131150_j62569083568519_1_alg».proof.Proof.Spec
import proofs.«131150_j62569083568519_1_alg».proof.Proof.RefRead
import Idealize.ShloMosaic.Lib.Pipeline.Value
import Idealize.ShloMosaic.Lib.ValueIdx
import Idealize.ShloMosaic.PureOps.Ideal.Laws

noncomputable section

open scoped BigOperators

namespace Cert.GcnSpec

open Cert.ReferenceIdeal Cert.ReferenceIdeal.Gen Cert.ReferenceIdeal.PRead Idealize.ShloMosaic Idealize.ShloMosaic.ValueIdx

/-- The f32 word of 1.0 is the extended real 1. -/
theorem ofBits_one_f32 : Ideal.ofBits .f32 0x3F800000#32 = 1 := by
  simp [Ideal.ofBits, Ideal.ieee, -EReal.coe_mul]; norm_num

/-! ## A host product with a computed left operand, as a sum over the contracted axis -/

/-- `y · W` for `y` of 64 columns: entry `i` is the sum over `k < 64` of `y (i₀, k) · W (k, i₁)`. -/
theorem dot1_apply (y : (⟨S100000x64, .f32⟩ : BufTy).Contents (Elt Ideal)) (w : (⟨S64x32, .f32⟩ : BufTy).Contents (Elt Ideal)) (i : S100000x32.Idx) :
    Host.dotGeneral (F := Ideal) (φ₁ := .f32) (φ₂ := .f32) dot_S100000x64_S64x32_S100000x32_1_0_0_1_n_n none y w i
      = ∑ k : Fin 64, y (lidx_main_v48 i k) * w (ridx_main_v48 i k) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x64_S64x32_S100000x32_1_0_0_1_n_n.rhsIdx i ((ValueIdx.contrEquiv1 dot_S100000x64_S64x32_S100000x32_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- `y · w` for `y` of 32 columns and `w` a single column: entry `i` is the sum over `k < 32` of `y (i₀, k) · w (k, i₁)`. -/
theorem dot2_apply (y : (⟨S100000x32, .f32⟩ : BufTy).Contents (Elt Ideal)) (w : (⟨S32x1, .f32⟩ : BufTy).Contents (Elt Ideal)) (i : S100000x1.Idx) :
    Host.dotGeneral (F := Ideal) (φ₁ := .f32) (φ₂ := .f32) dot_S100000x32_S32x1_S100000x1_1_0_0_1_n_n none y w i
      = ∑ k : Fin 32, y (lidx_main_v92 i k) * w (ridx_main_v92 i k) := by
  simp only [Host.dotGeneral]
  rw [Ideal.dotGeneral_apply, ← Equiv.sum_comp (ValueIdx.contrEquiv1 dot_S100000x32_S32x1_S100000x1_1_0_0_1_n_n 32 rfl rfl).symm]
  refine Finset.sum_congr rfl fun k _ => ?_
  have hk := ValueIdx.contrEquiv1_symm_val dot_S100000x32_S32x1_S100000x1_1_0_0_1_n_n 32 rfl rfl k
  have el : dot_S100000x32_S32x1_S100000x1_1_0_0_1_n_n.lhsIdx i ((ValueIdx.contrEquiv1 dot_S100000x32_S32x1_S100000x1_1_0_0_1_n_n 32 rfl rfl).symm k) = lidx_main_v92 i k := funext fun a => Fin.ext (by
    match a with
    | ⟨0, _⟩ => exact lhs_main_v92_0 _ _
    | ⟨1, _⟩ => exact (lhs_main_v92_1 _ _).trans hk)
  have er : dot_S100000x32_S32x1_S100000x1_1_0_0_1_n_n.rhsIdx i ((ValueIdx.contrEquiv1 dot_S100000x32_S32x1_S100000x1_1_0_0_1_n_n 32 rfl rfl).symm k) = ridx_main_v92 i k := funext fun a => Fin.ext (by
    match a with
    | ⟨0, _⟩ => exact (rhs_main_v92_0 _ _).trans hk
    | ⟨1, _⟩ => exact rhs_main_v92_1 _ _)
  rw [el, er]

/-! ## The biased, rectified operand at an index -/

/-- `relu(a + b)` over 64 features at `(n, k)`: `max (a (n, k) + b (0, k)) 0`. -/
theorem act1_apply (a : (⟨S100000x64, .f32⟩ : BufTy).Contents (Elt Ideal)) (b : (⟨S1x64, .f32⟩ : BufTy).Contents (Elt Ideal))
    (n : Fin 100000) (k : Fin 64) :
    maximumf (addf a (broadcastInDim S100000x64 ![0, 1] bcast_S1x64_S100000x64_0_1 b))
        (broadcastInDim S100000x64 ![] bcast_S_S100000x64 (constant (F := Ideal) S_ .f32 0x00000000#32)) (ix2 n k)
      = max (a (ix2 n k) + b (ix2 0 k)) 0 := by
  have hb : broadcastInDim S100000x64 ![0, 1] bcast_S1x64_S100000x64_0_1 b (ix2 n k) = b (ix2 0 k) :=
    broadcastInDim_apply _ bcast_S1x64_S100000x64_0_1 b (ix2 n k) (ix2 0 k) (fun a => match a with
      | ⟨0, _⟩ => by show 0 = if (1 : Nat) = 1 then 0 else n.val; rw [if_pos rfl]
      | ⟨1, _⟩ => by show k.val = if (64 : Nat) = 1 then 0 else k.val; rw [if_neg (by decide)])
  have hz : broadcastInDim S100000x64 ![] bcast_S_S100000x64 (constant (F := Ideal) S_ .f32 0x00000000#32) (ix2 n k) = 0 :=
    (broadcastInDim_apply _ bcast_S_S100000x64 (constant (F := Ideal) S_ .f32 0x00000000#32) (ix2 n k) ix0 (fun a => a.elim0)).trans
      Ideal.ofBits_zero_f32
  show max (a (ix2 n k) + broadcastInDim S100000x64 ![0, 1] bcast_S1x64_S100000x64_0_1 b (ix2 n k))
      (broadcastInDim S100000x64 ![] bcast_S_S100000x64 (constant (F := Ideal) S_ .f32 0x00000000#32) (ix2 n k)) = _
  rw [hb, hz]

/-- `relu(a + b)` over 32 features at `(n, k)`. -/
theorem act2_apply (a : (⟨S100000x32, .f32⟩ : BufTy).Contents (Elt Ideal)) (b : (⟨S1x32, .f32⟩ : BufTy).Contents (Elt Ideal))
    (n : Fin 100000) (k : Fin 32) :
    maximumf (addf a (broadcastInDim S100000x32 ![0, 1] bcast_S1x32_S100000x32_0_1 b))
        (broadcastInDim S100000x32 ![] bcast_S_S100000x32 (constant (F := Ideal) S_ .f32 0x00000000#32)) (ix2 n k)
      = max (a (ix2 n k) + b (ix2 0 k)) 0 := by
  have hb : broadcastInDim S100000x32 ![0, 1] bcast_S1x32_S100000x32_0_1 b (ix2 n k) = b (ix2 0 k) :=
    broadcastInDim_apply _ bcast_S1x32_S100000x32_0_1 b (ix2 n k) (ix2 0 k) (fun a => match a with
      | ⟨0, _⟩ => by show 0 = if (1 : Nat) = 1 then 0 else n.val; rw [if_pos rfl]
      | ⟨1, _⟩ => by show k.val = if (32 : Nat) = 1 then 0 else k.val; rw [if_neg (by decide)])
  have hz : broadcastInDim S100000x32 ![] bcast_S_S100000x32 (constant (F := Ideal) S_ .f32 0x00000000#32) (ix2 n k) = 0 :=
    (broadcastInDim_apply _ bcast_S_S100000x32 (constant (F := Ideal) S_ .f32 0x00000000#32) (ix2 n k) ix0 (fun a => a.elim0)).trans
      Ideal.ofBits_zero_f32
  show max (a (ix2 n k) + broadcastInDim S100000x32 ![0, 1] bcast_S1x32_S100000x32_0_1 b (ix2 n k))
      (broadcastInDim S100000x32 ![] bcast_S_S100000x32 (constant (F := Ideal) S_ .f32 0x00000000#32) (ix2 n k)) = _
  rw [hb, hz]

/-! ## The three layers at an index -/

theorem dense0_apply (x : (⟨S100000x256, .f32⟩ : BufTy).Contents (Elt Ideal)) (w : (⟨S256x64, .f32⟩ : BufTy).Contents (Elt Ideal))
    (n : Fin 100000) (j : Fin 64) :
    dense0 (F := Ideal) x w (ix2 n j) = ∑ k : Fin 256, x (ix2 n k) * w (ix2 k j) := by
  show val_main_v4 (F := Ideal) x w (ix2 n j) = _
  rw [val_main_v4_apply]
  refine Finset.sum_congr rfl fun k _ => ?_
  have el : lidx_main_v4 (ix2 n j) k = ix2 n k := funext fun a => by match a with | ⟨0, _⟩ => rfl | ⟨1, _⟩ => rfl
  have er : ridx_main_v4 (ix2 n j) k = ix2 k j := funext fun a => by match a with | ⟨0, _⟩ => rfl | ⟨1, _⟩ => rfl
  rw [el, er]

theorem dense1_apply (a : (⟨S100000x64, .f32⟩ : BufTy).Contents (Elt Ideal)) (b : (⟨S1x64, .f32⟩ : BufTy).Contents (Elt Ideal))
    (w : (⟨S64x32, .f32⟩ : BufTy).Contents (Elt Ideal)) (n : Fin 100000) (j : Fin 32) :
    dense1 (F := Ideal) a b w (ix2 n j) = ∑ k : Fin 64, max (a (ix2 n k) + b (ix2 0 k)) 0 * w (ix2 k j) := by
  unfold dense1
  rw [dot1_apply]
  refine Finset.sum_congr rfl fun k _ => ?_
  have el : lidx_main_v48 (ix2 n j) k = ix2 n k := funext fun a => by match a with | ⟨0, _⟩ => rfl | ⟨1, _⟩ => rfl
  have er : ridx_main_v48 (ix2 n j) k = ix2 k j := funext fun a => by match a with | ⟨0, _⟩ => rfl | ⟨1, _⟩ => rfl
  rw [el, er, act1_apply]

/-- The logistic function of the last layer's pre-activation, the logistic function spelt `1 / (1 + exp (-z))` with the host's
    quotient, exponential and negation. -/
theorem dense2_apply (a : (⟨S100000x32, .f32⟩ : BufTy).Contents (Elt Ideal)) (b : (⟨S1x32, .f32⟩ : BufTy).Contents (Elt Ideal))
    (w : (⟨S32x1, .f32⟩ : BufTy).Contents (Elt Ideal)) (β : (⟨S1x1, .f32⟩ : BufTy).Contents (Elt Ideal)) (n : Fin 100000) (j : Fin 1) :
    dense2 (F := Ideal) a b w β (ix2 n j)
      = Ideal.logistic ((∑ k : Fin 32, max (a (ix2 n k) + b (ix2 0 k)) 0 * w (ix2 k j)) + β (ix2 0 0)) := by
  unfold dense2
  have h1 : broadcastInDim S100000x1 ![] bcast_S_S100000x1 (constant (F := Ideal) S_ .f32 0x3F800000#32) (ix2 n j) = 1 :=
    (broadcastInDim_apply _ bcast_S_S100000x1 (constant (F := Ideal) S_ .f32 0x3F800000#32) (ix2 n j) ix0 (fun a => a.elim0)).trans
      ofBits_one_f32
  have hβ : broadcastInDim S100000x1 ![0, 1] bcast_S1x1_S100000x1_0_1 β (ix2 n j) = β (ix2 0 0) :=
    broadcastInDim_apply _ bcast_S1x1_S100000x1_0_1 β (ix2 n j) (ix2 0 0) (fun a => match a with
      | ⟨0, _⟩ => by show 0 = if (1 : Nat) = 1 then 0 else n.val; rw [if_pos rfl]
      | ⟨1, _⟩ => by show 0 = if (1 : Nat) = 1 then 0 else j.val; rw [if_pos rfl])
  have hd := dot2_apply (maximumf (addf a (broadcastInDim S100000x32 ![0, 1] bcast_S1x32_S100000x32_0_1 b))
        (broadcastInDim S100000x32 ![] bcast_S_S100000x32 (constant (F := Ideal) S_ .f32 0x00000000#32))) w (ix2 n j)
  show Ideal.div (broadcastInDim S100000x1 ![] bcast_S_S100000x1 (constant (F := Ideal) S_ .f32 0x3F800000#32) (ix2 n j))
      (broadcastInDim S100000x1 ![] bcast_S_S100000x1 (constant (F := Ideal) S_ .f32 0x3F800000#32) (ix2 n j)
        + Ideal.exp (-(Host.dotGeneral (F := Ideal) (φ₁ := .f32) (φ₂ := .f32) dot_S100000x32_S32x1_S100000x1_1_0_0_1_n_n none
            (maximumf (addf a (broadcastInDim S100000x32 ![0, 1] bcast_S1x32_S100000x32_0_1 b))
              (broadcastInDim S100000x32 ![] bcast_S_S100000x32 (constant (F := Ideal) S_ .f32 0x00000000#32))) w (ix2 n j)
          + broadcastInDim S100000x1 ![0, 1] bcast_S1x1_S100000x1_0_1 β (ix2 n j)))) = _
  rw [h1, hβ, hd]
  unfold Ideal.logistic
  refine congrArg (fun z => Ideal.div 1 (1 + Ideal.exp (-(z + β (ix2 0 0))))) (Finset.sum_congr rfl fun k _ => ?_)
  have el : lidx_main_v92 (ix2 n j) k = ix2 n k := funext fun a => by match a with | ⟨0, _⟩ => rfl | ⟨1, _⟩ => rfl
  have er : ridx_main_v92 (ix2 n j) k = ix2 k j := funext fun a => by match a with | ⟨0, _⟩ => rfl | ⟨1, _⟩ => rfl
  rw [el, er, act2_apply]

end Cert.GcnSpec

end
-- ==== Proof.Region0Block.lean ====
/-
  Region 0 of the kernel program: the value its body stores, and why a block of it is rows of the whole product.

  The region runs a grid of 50 points over an array `x` of 100000 node rows with 256 features and a 256 × 64 matrix `W`.
  Point `t` stages rows `2000 t … 2000 t + 1999` of `x` and the whole of `W`, and stores the matrix unit's product of the
  block with `W` into a zero accumulator: at the ideal instance, at row `p` of the block and column `q`,
  `∑ k < 256, x (2000 t + p, k) · W (k, q)` (a change of float format is the identity there), which is entry
  `(2000 t + p, q)` of `x W` taken over the whole arrays.
-/
import proofs.«131150_j62569083568519_1_alg».proof.Proof.Gen.KernelIdeal.Frame
import proofs.«131150_j62569083568519_1_alg».proof.Proof.Region0Mat
import proofs.«131150_j62569083568519_1_alg».proof.Proof.SpecApply
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

/-! ## The body's stored value at an index -/

/-- What the body stores, at `(p, q)` of the block. -/
theorem pay_apply (x0 : Vec Ideal S2000x256 .f32) (x1 : Vec Ideal S256x64 .f32) (p : Fin 2000) (q : Fin 64) :
    k0_pay1 (F := Ideal) x0 x1 (ix2 p q) = ∑ k : Fin 256, x0 (ix2 p k) * x1 (ix2 k q) := by
  unfold k0_pay1
  rw [mat_apply]
  rfl

/-! ## A block of the result is the rows of the whole product -/

/-- If the staged blocks are rows `r … r + 1999` of `A` and the matrix `W`, what the body stores at an index of the block is
    the whole product at the index `r` rows further down. -/
theorem block_eq (A : (⟨Cert.ReferenceIdeal.S100000x256, .f32⟩ : BufTy).Contents (Elt Ideal))
    (W : (⟨Cert.ReferenceIdeal.S256x64, .f32⟩ : BufTy).Contents (Elt Ideal))
    (x0 : Vec Ideal S2000x256 .f32) (x1 : Vec Ideal S256x64 .f32)
    (r : Nat) (hr : r + 2000 ≤ 100000)
    (h0 : ∀ (p : Fin 2000) (k : Fin 256), x0 (ix2 p k) = A (ix2 ⟨r + p.val, by have := p.isLt; omega⟩ k))
    (h1 : ∀ (k : Fin 256) (q : Fin 64), x1 (ix2 k q) = W (ix2 k q))
    (y : S2000x64.Idx) (i : Cert.ReferenceIdeal.S100000x64.Idx) (hi0 : (i 0).val = r + (y 0).val) (hi1 : (i 1).val = (y 1).val) :
    k0_pay1 (F := Ideal) x0 x1 y = Cert.GcnSpec.dense0 (F := Ideal) A W i := by
  obtain ⟨p, q, rfl⟩ : ∃ (p : Fin 2000) (q : Fin 64), y = ix2 p q := ⟨y 0, y 1, eq_ix2 y⟩
  have hi : i = ix2 (⟨r + p.val, by have := p.isLt; omega⟩ : Fin 100000) q := by
    funext a
    match a with
    | ⟨0, _⟩ => exact Fin.ext hi0
    | ⟨1, _⟩ => exact Fin.ext hi1
  rw [hi, pay_apply, Cert.GcnSpec.dense0_apply]
  refine Finset.sum_congr rfl fun k _ => ?_
  rw [h0, h1]

end Cert.KernelIdeal.Region0

end
-- ==== Proof.Region0.lean ====
/-
  Region 0, from blocks to the array: point `t` of the grid writes back block `t` of `x W` of the arrays the region found, and
  the 50 row blocks of 2000 rows tile the 100000 rows, so the output array ends as that whole product.

  The index maps send point `t` to block row `t` of the input `x` and of the output (block column 0) and to block (0, 0) of
  `W`; a block's coordinate is block index × block size + the coordinate inside the block.
-/
import proofs.«131150_j62569083568519_1_alg».proof.Proof.Region0Block

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output move with the point along the rows; `W` stays at
    block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := Nat.lt_of_lt_of_eq t.isLt N_0

/-- Entry `(p, k)` of the input's block at point `t` is entry `(2000 t + p, k)` of its array. -/
theorem read0 (c : Dev nD) (t : Fin cfg0.N) (p : Fin 2000) (k : Fin 256) :
    (iblk0 V c 0 t : Vec Ideal S2000x256 .f32) (ix2 p k)
      = V c main_arg0 (ix2 (⟨t.val * 2000 + p.val, by have := point_lt t; have := p.isLt; omega⟩ : Fin 100000) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The matrix's block is the matrix. -/
theorem read1 (c : Dev nD) (t : Fin cfg0.N) (k : Fin 256) (q : Fin 64) :
    (iblk0 V c 1 t : Vec Ideal S256x64 .f32) (ix2 k q) = V c main_arg2 (ix2 k q) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-- WHAT POINT `t` WRITES BACK is block `t` of `x W` of the arrays as the region finds them. -/
theorem flushed_eq (c : Dev nD) (t : Fin cfg0.N) :
    (dat0 (F := Ideal) V c).flushed 2 t = ((cfg0.win 2).blk t).view.read (Elt Ideal)
      (Cert.GcnSpec.dense0 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x64) hz]
  obtain ⟨-, -, -, -, e4, e5⟩ := idx_facts t
  have ht := point_lt t
  funext j
  refine block_eq (V c main_arg0) (V c main_arg2) (iblk0 V c 0 t) (iblk0 V c 1 t)
    (t.val * 2000) (by omega) (fun p k => read0 V c t p k) (fun k q => read1 V c t k q) j _ ?_ ?_
  · show win0_2.index t (0 : Fin 2) * 2000 + 1 * (j 0).val = t.val * 2000 + (j 0).val; rw [e4]; omega
  · show win0_2.index t (1 : Fin 2) * 64 + 1 * (j 1).val = (j 1).val; rw [e5]; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Row `r` of the output is in the block of point `r / 2000`: the blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by rw [show cfg0.N = 50 from N_0]; omega
  obtain ⟨-, -, -, -, e4, e5⟩ := idx_facts ⟨(i 0).val / 2000, hN⟩
  refine ⟨⟨(i 0).val / 2000, hN⟩, flush0_2 _, ?_⟩
  rw [mem_blk]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 64 ≤ (i 1).val ∧ (i 1).val < win0_2.index ⟨(i 0).val / 2000, hN⟩ (1 : Fin 2) * 64 + 64
    rw [e5]; omega

/-- THE OUTPUT ARRAY after the region: `x W` of the arrays the region found. -/
theorem final0 (c : Dev nD) :
    (dat0 (F := Ideal) V c).arrAt 2 cfg0.N = Cert.GcnSpec.dense0 (F := Ideal) (V c main_arg0) (V c main_arg2) :=
  (dat0 (F := Ideal) V c).arrAt_eq_of_cover 2 _ (fun t _ => flushed_eq V c t) cover

end Cert.KernelIdeal.Region0

end
-- ==== Proof.Region1Mat.lean ====
/-
  The matrix unit's product of a staged block of rows with a staged matrix, into a zero accumulator, read at an index at the
  ideal instance (floats are extended reals, operations exact): the accumulator contributes 0, and what is left is the sum
  over the one contracted axis of the operands' products. The four facts before it say which operand entries the product at
  an output index and a contraction index reads: row of the output and the contraction index on the left, the contraction
  index and column of the output on the right.
  (Region 1: a 2000 × 64 block with a 64 × 32 matrix.)
-/
import proofs.«131150_j62569083568519_1_alg».proof.Proof.Gen.KernelIdeal
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.ValueIdx

theorem lhs_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem rhs_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem rhs_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Into a zero accumulator the product at `(p, q)` is the sum over the 64 contracted columns. -/
theorem mat_apply (y : FVec Ideal S2000x64 .bf16) (w : FVec Ideal S64x32 .bf16) (p : Fin 2000) (q : Fin 32) :
    matmul (F := Ideal) dot_S2000x64_S64x32_S2000x32_1_0_0_1_n_n none y w (constant S2000x32 .f32 0x00000000#32) (ix2 p q)
      = ∑ k : Fin 64, y (ix2 p k) * w (ix2 k q) := by
  simp only [matmul]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p q) ((ValueIdx.contrEquiv1 dot_S2000x64_S64x32_S2000x32_1_0_0_1_n_n 64 rfl rfl).symm k) = ix2 p k := funext fun a => Fin.ext (by
    match a with
    | ⟨0, _⟩ => exact lhs_0 _ _
    | ⟨1, _⟩ => exact (lhs_1 _ _).trans hk)
  have er : dot_S2000x64_S64x32_S2000x32_1_0_0_1_n_n.rhsIdx (ix2 p q) ((ValueIdx.contrEquiv1 dot_S2000x64_S64x32_S2000x32_1_0_0_1_n_n 64 rfl rfl).symm k) = ix2 k q := funext fun a => Fin.ext (by
    match a with
    | ⟨0, _⟩ => exact (rhs_0 _ _).trans hk
    | ⟨1, _⟩ => exact rhs_1 _ _)
  rw [el, er]

end Cert.KernelIdeal.Region1

end
-- ==== Proof.Region1Block.lean ====
/-
  Region 1 of the kernel program: what its output array holds when the region ends.

  The region runs a grid of 50 points over an array `a` of 100000 node rows with 64 features, one row `b` and a
  64 × 32 matrix `W`. Point `t` stages rows `2000 t … 2000 t + 1999` of `a` (all 64 columns), the whole row `b` and
  the whole of `W`, and writes back rows `2000 t … 2000 t + 1999` of the result (all 32 columns): at row `p` of the block
  and column `q`, the matrix unit's product of `relu(a_block + b)` with `W` into a zero accumulator, which at the ideal
  instance is `∑ k < 64, max (a (2000 t + p, k) + b (0, k)) 0 · W (k, q)` (a change of float format is the identity there).
  That is entry `(2000 t + p, q)` of `relu(a + b) W` taken over the whole arrays; the 50 blocks tile the 100000 rows, so
  the output array ends as `relu(a + b) W`.
-/
import proofs.«131150_j62569083568519_1_alg».proof.Proof.Gen.KernelIdeal.Frame
import proofs.«131150_j62569083568519_1_alg».proof.Proof.Region1Mat
import proofs.«131150_j62569083568519_1_alg».proof.Proof.SpecApply
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

/-! ## The body's stored value at an index -/

/-- The left operand the body hands the matrix unit, at `(p, k)`: `max (x0 (p, k) + x1 (0, k)) 0`. -/
theorem act_apply (x0 : Vec Ideal S2000x64 .f32) (x1 : Vec Ideal S1x64 .f32) (p : Fin 2000) (k : Fin 64) :
    (truncf (F := Ideal) .bf16 (maximumf (addf (shapeCast S2000x64 x0 shapeCasts_S2000x64_S2000x64)
        (broadcastTo S2000x64 (shapeCast S1x64 x1 shapeCasts_S1x64_S1x64) broadcasts_S1x64_S2000x64))
        (broadcast S2000x64 (Scalar.ofBits (F := Ideal) .f32 0x00000000#32))) bitsLt_bf16_f32) (ix2 p k)
      = max (x0 (ix2 p k) + x1 (ix2 0 k)) 0 := by
  rw [shapeCast_self, shapeCast_self]
  have hb : broadcastTo S2000x64 x1 broadcasts_S1x64_S2000x64 (ix2 p k) = x1 (ix2 0 k) :=
    broadcastTo_apply x1 broadcasts_S1x64_S2000x64 (ix2 p k) (ix2 0 k) (fun a => match a with
      | ⟨0, _⟩ => by show 0 = if (1 : Nat) = 1 then 0 else _; rw [if_pos rfl]
      | ⟨1, _⟩ => by show k.val = if (64 : Nat) = 1 then 0 else k.val; rw [if_neg (by decide)])
  show max (x0 (ix2 p k) + broadcastTo S2000x64 x1 broadcasts_S1x64_S2000x64 (ix2 p k)) (Ideal.ofBits .f32 0x00000000#32) = _
  rw [hb, Ideal.ofBits_zero_f32]

/-- What the body stores, at `(p, q)` of the block. -/
theorem pay_apply (x0 : Vec Ideal S2000x64 .f32) (x1 : Vec Ideal S1x64 .f32) (x2 : Vec Ideal S64x32 .f32) (p : Fin 2000) (q : Fin 32) :
    k1_pay1 (F := Ideal) x0 x1 x2 (ix2 p q) = ∑ k : Fin 64, max (x0 (ix2 p k) + x1 (ix2 0 k)) 0 * x2 (ix2 k q) := by
  unfold k1_pay1
  rw [mat_apply]
  refine Finset.sum_congr rfl fun k _ => ?_
  rw [act_apply]
  rfl

/-! ## A block of the result is the rows of the whole product -/

/-- If the staged blocks are rows `r … r + 1999` of `A`, the row `B` and the matrix `W`, what the body stores at an index of
    the block is the whole product at the index `r` rows further down. -/
theorem block_eq (A : (⟨Cert.ReferenceIdeal.S100000x64, .f32⟩ : BufTy).Contents (Elt Ideal))
    (B : (⟨Cert.ReferenceIdeal.S1x64, .f32⟩ : BufTy).Contents (Elt Ideal))
    (W : (⟨Cert.ReferenceIdeal.S64x32, .f32⟩ : BufTy).Contents (Elt Ideal))
    (x0 : Vec Ideal S2000x64 .f32) (x1 : Vec Ideal S1x64 .f32) (x2 : Vec Ideal S64x32 .f32)
    (r : Nat) (hr : r + 2000 ≤ 100000)
    (h0 : ∀ (p : Fin 2000) (k : Fin 64), x0 (ix2 p k) = A (ix2 ⟨r + p.val, by have := p.isLt; omega⟩ k))
    (h1 : ∀ k : Fin 64, x1 (ix2 0 k) = B (ix2 0 k))
    (h2 : ∀ (k : Fin 64) (q : Fin 32), x2 (ix2 k q) = W (ix2 k q))
    (y : S2000x32.Idx) (i : Cert.ReferenceIdeal.S100000x32.Idx) (hi0 : (i 0).val = r + (y 0).val) (hi1 : (i 1).val = (y 1).val) :
    k1_pay1 (F := Ideal) x0 x1 x2 y = Cert.GcnSpec.dense1 (F := Ideal) A B W i := by
  obtain ⟨p, q, rfl⟩ : ∃ (p : Fin 2000) (q : Fin 32), y = ix2 p q := ⟨y 0, y 1, eq_ix2 y⟩
  have hi : i = ix2 (⟨r + p.val, by have := p.isLt; omega⟩ : Fin 100000) q := by
    funext a
    match a with
    | ⟨0, _⟩ => exact Fin.ext hi0
    | ⟨1, _⟩ => exact Fin.ext hi1
  rw [hi, pay_apply, Cert.GcnSpec.dense1_apply]
  refine Finset.sum_congr rfl fun k _ => ?_
  rw [h0, h1, h2]

end Cert.KernelIdeal.Region1

end
-- ==== Proof.Region1.lean ====
/-
  Region 1, from blocks to the array: point `t` of the grid writes back block `t` of `relu(a + b) W` of the arrays the
  region found, and the 50 row blocks of 2000 rows tile the 100000 rows, so the output array ends as that whole product.

  Which rows a point stages: the index maps send point `t` to block row `t` of the first input and of the output (block
  column 0) and to block (0, 0) of the row `b` and of `W`; a block's coordinate is block index × block size + the
  coordinate inside the block, so entry `(p, k)` of the first input's block is entry `(2000 t + p, k)` of its array.
-/
import proofs.«131150_j62569083568519_1_alg».proof.Proof.Region1Block

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first input and the output move with the point along the rows; the row
    `b` and the matrix `W` stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 50 := Nat.lt_of_lt_of_eq t.isLt N_1

/-- Entry `(p, k)` of the first input's block at point `t` is entry `(2000 t + p, k)` of its array. -/
theorem read0 (c : Dev nD) (t : Fin cfg1.N) (p : Fin 2000) (k : Fin 64) :
    (iblk1 V c 0 t : Vec Ideal S2000x64 .f32) (ix2 p k)
      = V c main_v43 (ix2 (⟨t.val * 2000 + p.val, by have := point_lt t; have := p.isLt; omega⟩ : Fin 100000) k) := by
  obtain ⟨e0, e1, -⟩ := idx_facts t
  unfold iblk1
  rw [View.read_apply]
  show V c main_v43 _ = V c main_v43 _
  refine congrArg (V c main_v43) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 64 + 1 * k.val = k.val; rw [e1]; omega

/-- The row's block is the row. -/
theorem read1 (c : Dev nD) (t : Fin cfg1.N) (k : Fin 64) :
    (iblk1 V c 1 t : Vec Ideal S1x64 .f32) (ix2 0 k) = V c main_v44 (ix2 0 k) := by
  obtain ⟨-, -, e2, e3, -⟩ := idx_facts t
  unfold iblk1
  rw [View.read_apply]
  show V c main_v44 _ = V c main_v44 _
  refine congrArg (V c main_v44) (funext fun a => Fin.ext ?_)
  match a with
  | ⟨0, _⟩ => show win1_1.index t (0 : Fin 2) * 1 + 1 * 0 = 0; rw [e2]
  | ⟨1, _⟩ => show win1_1.index t (1 : Fin 2) * 64 + 1 * k.val = k.val; rw [e3]; omega

/-- The matrix's block is the matrix. -/
theorem read2 (c : Dev nD) (t : Fin cfg1.N) (k : Fin 64) (q : Fin 32) :
    (iblk1 V c 2 t : Vec Ideal S64x32 .f32) (ix2 k q) = V c main_arg4 (ix2 k q) := by
  obtain ⟨-, -, -, -, e4, e5, -⟩ := idx_facts t
  unfold iblk1
  rw [View.read_apply]
  show V c main_arg4 _ = V c main_arg4 _
  refine congrArg (V c main_arg4) (funext fun a => Fin.ext ?_)
  match a with
  | ⟨0, _⟩ => show win1_2.index t (0 : Fin 2) * 64 + 1 * k.val = k.val; rw [e4]; omega
  | ⟨1, _⟩ => show win1_2.index t (1 : Fin 2) * 32 + 1 * q.val = q.val; rw [e5]; omega

/-- WHAT POINT `t` WRITES BACK is block `t` of `relu(a + b) W` of the arrays as the region finds them. -/
theorem flushed_eq (c : Dev nD) (t : Fin cfg1.N) :
    (dat1 (F := Ideal) V c).flushed 3 t = ((cfg1.win 3).blk t).view.read (Elt Ideal)
      (Cert.GcnSpec.dense1 (F := Ideal) (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz, View.ld_unit_zero (S := S64x32) hz]
  obtain ⟨-, -, -, -, -, -, e6, e7⟩ := idx_facts t
  have ht := point_lt t
  funext j
  refine block_eq (V c main_v43) (V c main_v44) (V c main_arg4) (iblk1 V c 0 t) (iblk1 V c 1 t) (iblk1 V c 2 t)
    (t.val * 2000) (by omega) (fun p k => read0 V c t p k) (fun k => read1 V c t k) (fun k q => read2 V c t k q) j _ ?_ ?_
  · show win1_3.index t (0 : Fin 2) * 2000 + 1 * (j 0).val = t.val * 2000 + (j 0).val; rw [e6]; omega
  · show win1_3.index t (1 : Fin 2) * 32 + 1 * (j 1).val = (j 1).val; rw [e7]; omega

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v45).slice (win1_3.rect t)).set ↔ _
  rw [View.set_slice_whole, Rect.mem_set_unit]
  exact Iff.rfl

/-- Row `r` of the output is in the block of point `r / 2000`: the blocks cover the array. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : (i 0).val / 2000 < cfg1.N := by rw [show cfg1.N = 50 from N_1]; omega
  obtain ⟨-, -, -, -, -, -, e6, e7⟩ := idx_facts ⟨(i 0).val / 2000, hN⟩
  refine ⟨⟨(i 0).val / 2000, hN⟩, flush1_3 _, ?_⟩
  rw [mem_blk]
  intro a
  match a with
  | ⟨0, _⟩ =>
    show win1_3.index ⟨(i 0).val / 2000, hN⟩ (0 : Fin 2) * 2000 ≤ (i 0).val ∧ (i 0).val < win1_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hN⟩ (1 : Fin 2) * 32 ≤ (i 1).val ∧ (i 1).val < win1_3.index ⟨(i 0).val / 2000, hN⟩ (1 : Fin 2) * 32 + 32
    rw [e7]; omega

/-- THE OUTPUT ARRAY after the region: `relu(a + b) W` of the arrays the region found. -/
theorem final1 (c : Dev nD) :
    (dat1 (F := Ideal) V c).arrAt 3 cfg1.N = Cert.GcnSpec.dense1 (F := Ideal) (V c main_v43) (V c main_v44) (V c main_arg4) :=
  (dat1 (F := Ideal) V c).arrAt_eq_of_cover 3 _ (fun t _ => flushed_eq V c t) cover

end Cert.KernelIdeal.Region1

end
-- ==== Proof.Region2Mat.lean ====
/-
  The matrix unit's product of a staged block of rows with a staged matrix, into a zero accumulator, read at an index at the
  ideal instance (floats are extended reals, operations exact): the accumulator contributes 0, and what is left is the sum
  over the one contracted axis of the operands' products. The four facts before it say which operand entries the product at
  an output index and a contraction index reads: row of the output and the contraction index on the left, the contraction
  index and column of the output on the right.
  (Region 2: a 2000 × 32 block with a 32 × 1 column.)
-/
import proofs.«131150_j62569083568519_1_alg».proof.Proof.Gen.KernelIdeal
import Idealize.ShloMosaic.Lib.ValueIdx
import Idealize.ShloMosaic.PureOps.Ideal.Laws

noncomputable section

open scoped BigOperators

namespace Cert.KernelIdeal.Region2

open Cert.KernelIdeal Cert.KernelIdeal.Gen Idealize.ShloMosaic Idealize.ShloMosaic.ValueIdx

theorem lhs_0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide), dif_pos (show (0 : Fin S2000x32.rank) ∈ dot_S2000x32_S32x1_S2000x1_1_0_0_1_n_n.lhsNonContracting by decide)]
  rfl
theorem lhs_1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem rhs_0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem rhs_1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide), dif_pos (show (1 : Fin S32x1.rank) ∈ dot_S2000x32_S32x1_S2000x1_1_0_0_1_n_n.rhsNonContracting by decide)]
  rfl

/-- Into a zero accumulator the product at `(p, q)` is the sum over the 32 contracted columns. -/
theorem mat_apply (y : FVec Ideal S2000x32 .bf16) (w : FVec Ideal S32x1 .bf16) (p : Fin 2000) (q : Fin 1) :
    matmul (F := Ideal) dot_S2000x32_S32x1_S2000x1_1_0_0_1_n_n none y w (constant S2000x1 .f32 0x00000000#32) (ix2 p q)
      = ∑ k : Fin 32, y (ix2 p k) * w (ix2 k q) := by
  simp only [matmul]
  rw [Ideal.matmul_constant_zero_apply, ← Equiv.sum_comp (ValueIdx.contrEquiv1 dot_S2000x32_S32x1_S2000x1_1_0_0_1_n_n 32 rfl rfl).symm]
  refine Finset.sum_congr rfl fun k _ => ?_
  have hk := ValueIdx.contrEquiv1_symm_val dot_S2000x32_S32x1_S2000x1_1_0_0_1_n_n 32 rfl rfl k
  have el : dot_S2000x32_S32x1_S2000x1_1_0_0_1_n_n.lhsIdx (ix2 p q) ((ValueIdx.contrEquiv1 dot_S2000x32_S32x1_S2000x1_1_0_0_1_n_n 32 rfl rfl).symm k) = ix2 p k := funext fun a => Fin.ext (by
    match a with
    | ⟨0, _⟩ => exact lhs_0 _ _
    | ⟨1, _⟩ => exact (lhs_1 _ _).trans hk)
  have er : dot_S2000x32_S32x1_S2000x1_1_0_0_1_n_n.rhsIdx (ix2 p q) ((ValueIdx.contrEquiv1 dot_S2000x32_S32x1_S2000x1_1_0_0_1_n_n 32 rfl rfl).symm k) = ix2 k q := funext fun a => Fin.ext (by
    match a with
    | ⟨0, _⟩ => exact (rhs_0 _ _).trans hk
    | ⟨1, _⟩ => exact rhs_1 _ _)
  rw [el, er]

end Cert.KernelIdeal.Region2

end
-- ==== Proof.Region2Block.lean ====
/-
  Region 2 of the kernel program: the value its body stores, and why a block of it is rows of the whole last layer.

  The region runs a grid of 50 points over an array `a` of 100000 node rows with 32 features, one row `b`, a 32 × 1
  column `w` and a single entry `β`. Point `t` stages rows `2000 t … 2000 t + 1999` of `a` and the whole of `b`, `w`, `β`,
  and stores, at row `p` of the block (its one column), the logistic function of the matrix unit's product of
  `relu(a_block + b)` with `w` into a zero accumulator, plus `β`: at the ideal instance
  `σ(∑ k < 32, max (a (2000 t + p, k) + b (0, k)) 0 · w (k, 0) + β (0, 0))` with `σ(z) = 1 / (1 + exp (-z))`, which is
  entry `(2000 t + p, 0)` of `σ(relu(a + b) w + β)` taken over the whole arrays.
-/
import proofs.«131150_j62569083568519_1_alg».proof.Proof.Gen.KernelIdeal.Frame
import proofs.«131150_j62569083568519_1_alg».proof.Proof.Region2Mat
import proofs.«131150_j62569083568519_1_alg».proof.Proof.SpecApply
import Idealize.ShloMosaic.Lib.Pipeline.Value
import Idealize.ShloMosaic.Lib.ValueIdx
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

/-! ## The body's stored value at an index -/

/-- The left operand the body hands the matrix unit, at `(p, k)`: `max (x0 (p, k) + x1 (0, k)) 0`. -/
theorem act_apply (x0 : Vec Ideal S2000x32 .f32) (x1 : Vec Ideal S1x32 .f32) (p : Fin 2000) (k : Fin 32) :
    (truncf (F := Ideal) .bf16 (maximumf (addf (shapeCast S2000x32 x0 shapeCasts_S2000x32_S2000x32)
        (broadcastTo S2000x32 (shapeCast S1x32 x1 shapeCasts_S1x32_S1x32) broadcasts_S1x32_S2000x32))
        (broadcast S2000x32 (Scalar.ofBits (F := Ideal) .f32 0x00000000#32))) bitsLt_bf16_f32) (ix2 p k)
      = max (x0 (ix2 p k) + x1 (ix2 0 k)) 0 := by
  rw [shapeCast_self, shapeCast_self]
  have hb : broadcastTo S2000x32 x1 broadcasts_S1x32_S2000x32 (ix2 p k) = x1 (ix2 0 k) :=
    broadcastTo_apply x1 broadcasts_S1x32_S2000x32 (ix2 p k) (ix2 0 k) (fun a => match a with
      | ⟨0, _⟩ => by show 0 = if (1 : Nat) = 1 then 0 else _; rw [if_pos rfl]
      | ⟨1, _⟩ => by show k.val = if (32 : Nat) = 1 then 0 else k.val; rw [if_neg (by decide)])
  show max (x0 (ix2 p k) + broadcastTo S2000x32 x1 broadcasts_S1x32_S2000x32 (ix2 p k)) (Ideal.ofBits .f32 0x00000000#32) = _
  rw [hb, Ideal.ofBits_zero_f32]

/-- The single entry `β` broadcast down the block's rows reads `β (0, 0)` everywhere. -/
theorem beta_apply (x3 : Vec Ideal S1x1 .f32) (p : Fin 2000) (q : Fin 1) :
    broadcastTo S2000x1 (shapeCast S1x1 x3 shapeCasts_S1x1_S1x1) broadcasts_S1x1_S2000x1 (ix2 p q) = x3 (ix2 0 0) := by
  rw [shapeCast_self]
  exact broadcastTo_apply x3 broadcasts_S1x1_S2000x1 (ix2 p q) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- What the body stores, at `(p, q)` of the block. -/
theorem pay_apply (x0 : Vec Ideal S2000x32 .f32) (x1 : Vec Ideal S1x32 .f32) (x2 : Vec Ideal S32x1 .f32) (x3 : Vec Ideal S1x1 .f32)
    (p : Fin 2000) (q : Fin 1) :
    k2_pay1 (F := Ideal) x0 x1 x2 x3 (ix2 p q)
      = Ideal.logistic ((∑ k : Fin 32, max (x0 (ix2 p k) + x1 (ix2 0 k)) 0 * x2 (ix2 k q)) + x3 (ix2 0 0)) := by
  unfold k2_pay1
  show Ideal.logistic (matmul (F := Ideal) dot_S2000x32_S32x1_S2000x1_1_0_0_1_n_n none _ _ (constant S2000x1 .f32 0x00000000#32) (ix2 p q)
      + broadcastTo S2000x1 (shapeCast S1x1 x3 shapeCasts_S1x1_S1x1) broadcasts_S1x1_S2000x1 (ix2 p q)) = _
  rw [mat_apply, beta_apply]
  refine congrArg (fun z => Ideal.logistic (z + x3 (ix2 0 0))) (Finset.sum_congr rfl fun k _ => ?_)
  rw [act_apply]
  rfl

/-! ## A block of the result is the rows of the whole last layer -/

/-- If the staged blocks are rows `r … r + 1999` of `A`, the row `B`, the column `W` and the entry `β`, what the body stores at
    an index of the block is the whole last layer at the index `r` rows further down. -/
theorem block_eq (A : (⟨Cert.ReferenceIdeal.S100000x32, .f32⟩ : BufTy).Contents (Elt Ideal))
    (B : (⟨Cert.ReferenceIdeal.S1x32, .f32⟩ : BufTy).Contents (Elt Ideal))
    (W : (⟨Cert.ReferenceIdeal.S32x1, .f32⟩ : BufTy).Contents (Elt Ideal))
    (β : (⟨Cert.ReferenceIdeal.S1x1, .f32⟩ : BufTy).Contents (Elt Ideal))
    (x0 : Vec Ideal S2000x32 .f32) (x1 : Vec Ideal S1x32 .f32) (x2 : Vec Ideal S32x1 .f32) (x3 : Vec Ideal S1x1 .f32)
    (r : Nat) (hr : r + 2000 ≤ 100000)
    (h0 : ∀ (p : Fin 2000) (k : Fin 32), x0 (ix2 p k) = A (ix2 ⟨r + p.val, by have := p.isLt; omega⟩ k))
    (h1 : ∀ k : Fin 32, x1 (ix2 0 k) = B (ix2 0 k))
    (h2 : ∀ (k : Fin 32) (q : Fin 1), x2 (ix2 k q) = W (ix2 k q))
    (h3 : x3 (ix2 0 0) = β (ix2 0 0))
    (y : S2000x1.Idx) (i : Cert.ReferenceIdeal.S100000x1.Idx) (hi0 : (i 0).val = r + (y 0).val) (hi1 : (i 1).val = (y 1).val) :
    k2_pay1 (F := Ideal) x0 x1 x2 x3 y = Cert.GcnSpec.dense2 (F := Ideal) A B W β i := by
  obtain ⟨p, q, rfl⟩ : ∃ (p : Fin 2000) (q : Fin 1), y = ix2 p q := ⟨y 0, y 1, eq_ix2 y⟩
  have hi : i = ix2 (⟨r + p.val, by have := p.isLt; omega⟩ : Fin 100000) q := by
    funext a
    match a with
    | ⟨0, _⟩ => exact Fin.ext hi0
    | ⟨1, _⟩ => exact Fin.ext hi1
  rw [hi, pay_apply, Cert.GcnSpec.dense2_apply, h3]
  refine congrArg (fun z => Ideal.logistic (z + β (ix2 0 0))) (Finset.sum_congr rfl fun k _ => ?_)
  rw [h0, h1, h2]

end Cert.KernelIdeal.Region2

end
-- ==== Proof.Region2.lean ====
/-
  Region 2, from blocks to the array: point `t` of the grid writes back block `t` of `σ(relu(a + b) w + β)` of the arrays the
  region found, and the 50 row blocks of 2000 rows tile the 100000 rows, so the output array ends as that whole last layer.

  The index maps send point `t` to block row `t` of the first input and of the output (block column 0) and to block (0, 0) of
  the row `b`, the column `w` and the entry `β`; a block's coordinate is block index × block size + the coordinate inside
  the block.
-/
import proofs.«131150_j62569083568519_1_alg».proof.Proof.Region2Block

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first input and the output move with the point along the rows; the row, the
    column and the single entry stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 50 := Nat.lt_of_lt_of_eq t.isLt N_2

/-- Entry `(p, k)` of the first input's block at point `t` is entry `(2000 t + p, k)` of its array. -/
theorem read0 (c : Dev nD) (t : Fin cfg2.N) (p : Fin 2000) (k : Fin 32) :
    (iblk2 V c 0 t : Vec Ideal S2000x32 .f32) (ix2 p k)
      = V c main_v58 (ix2 (⟨t.val * 2000 + p.val, by have := point_lt t; have := p.isLt; omega⟩ : Fin 100000) k) := by
  obtain ⟨e0, e1, -⟩ := idx_facts t
  unfold iblk2
  rw [View.read_apply]
  show V c main_v58 _ = V c main_v58 _
  refine congrArg (V c main_v58) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 32 + 1 * k.val = k.val; rw [e1]; omega

/-- The row's block is the row. -/
theorem read1 (c : Dev nD) (t : Fin cfg2.N) (k : Fin 32) :
    (iblk2 V c 1 t : Vec Ideal S1x32 .f32) (ix2 0 k) = V c main_v59 (ix2 0 k) := by
  obtain ⟨-, -, e2, e3, -⟩ := idx_facts t
  unfold iblk2
  rw [View.read_apply]
  show V c main_v59 _ = V c main_v59 _
  refine congrArg (V c main_v59) (funext fun a => Fin.ext ?_)
  match a with
  | ⟨0, _⟩ => show win2_1.index t (0 : Fin 2) * 1 + 1 * 0 = 0; rw [e2]
  | ⟨1, _⟩ => show win2_1.index t (1 : Fin 2) * 32 + 1 * k.val = k.val; rw [e3]; omega

/-- The column's block is the column. -/
theorem read2 (c : Dev nD) (t : Fin cfg2.N) (k : Fin 32) (q : Fin 1) :
    (iblk2 V c 2 t : Vec Ideal S32x1 .f32) (ix2 k q) = V c main_arg6 (ix2 k q) := by
  obtain ⟨-, -, -, -, e4, e5, -⟩ := idx_facts t
  unfold iblk2
  rw [View.read_apply]
  show V c main_arg6 _ = V c main_arg6 _
  refine congrArg (V c main_arg6) (funext fun a => Fin.ext ?_)
  match a with
  | ⟨0, _⟩ => show win2_2.index t (0 : Fin 2) * 32 + 1 * k.val = k.val; rw [e4]; omega
  | ⟨1, _⟩ => show win2_2.index t (1 : Fin 2) * 1 + 1 * q.val = q.val; rw [e5]; omega

/-- The single entry's block is the entry. -/
theorem read3 (c : Dev nD) (t : Fin cfg2.N) :
    (iblk2 V c 3 t : Vec Ideal S1x1 .f32) (ix2 0 0) = V c main_v60 (ix2 0 0) := by
  obtain ⟨-, -, -, -, -, -, e6, e7, -⟩ := idx_facts t
  unfold iblk2
  rw [View.read_apply]
  show V c main_v60 _ = V c main_v60 _
  refine congrArg (V c main_v60) (funext fun a => Fin.ext ?_)
  match a with
  | ⟨0, _⟩ => show win2_3.index t (0 : Fin 2) * 1 + 1 * 0 = 0; rw [e6]
  | ⟨1, _⟩ => show win2_3.index t (1 : Fin 2) * 1 + 1 * 0 = 0; rw [e7]

/-- WHAT POINT `t` WRITES BACK is block `t` of `σ(relu(a + b) w + β)` of the arrays as the region finds them. -/
theorem flushed_eq (c : Dev nD) (t : Fin cfg2.N) :
    (dat2 (F := Ideal) V c).flushed 4 t = ((cfg2.win 4).blk t).view.read (Elt Ideal)
      (Cert.GcnSpec.dense2 (F := Ideal) (V c main_v58) (V c main_v59) (V c main_arg6) (V c main_v60)) := by
  show (cfg2.win 4).cut (grid2.coords t) ((dat2 V c).after 4 t) = _
  rw [after2_4]
  unfold out2_4
  rw [View.canon_unit_zero hz]
  simp only [View.ld_unit_zero (S := S2000x32) hz, View.ld_unit_zero (S := S1x32) hz, View.ld_unit_zero (S := S32x1) hz, View.ld_unit_zero (S := S1x1) hz]
  obtain ⟨-, -, -, -, -, -, -, -, e8, e9⟩ := idx_facts t
  have ht := point_lt t
  funext j
  refine block_eq (V c main_v58) (V c main_v59) (V c main_arg6) (V c main_v60) (iblk2 V c 0 t) (iblk2 V c 1 t) (iblk2 V c 2 t) (iblk2 V c 3 t)
    (t.val * 2000) (by omega) (fun p k => read0 V c t p k) (fun k => read1 V c t k) (fun k q => read2 V c t k q) (read3 V c t) j _ ?_ ?_
  · show win2_4.index t (0 : Fin 2) * 2000 + 1 * (j 0).val = t.val * 2000 + (j 0).val; rw [e8]; omega
  · show win2_4.index t (1 : Fin 2) * 1 + 1 * (j 1).val = (j 1).val; rw [e9]; omega

/-- An index of the output array is in point `t`'s block iff each coordinate is in the block's range on its axis. -/
theorem mem_blk (t : Fin cfg2.N) (i : S100000x1.Idx) :
    i ∈ ((cfg2.win 4).blk t).view.set ↔ ∀ a : Fin 2, win2_4.index t a * S2000x1.size a ≤ (i a).val ∧ (i a).val < win2_4.index t a * S2000x1.size a + S2000x1.size a := by
  show i ∈ ((View.whole main_v61).slice (win2_4.rect t)).set ↔ _
  rw [View.set_slice_whole, Rect.mem_set_unit]
  exact Iff.rfl

/-- Row `r` of the output is in the block of point `r / 2000`: the blocks cover the array. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : (i 0).val / 2000 < cfg2.N := by rw [show cfg2.N = 50 from N_2]; omega
  obtain ⟨-, -, -, -, -, -, -, -, e8, e9⟩ := idx_facts ⟨(i 0).val / 2000, hN⟩
  refine ⟨⟨(i 0).val / 2000, hN⟩, flush2_4 _, ?_⟩
  rw [mem_blk]
  intro a
  match a with
  | ⟨0, _⟩ =>
    show win2_4.index ⟨(i 0).val / 2000, hN⟩ (0 : Fin 2) * 2000 ≤ (i 0).val ∧ (i 0).val < win2_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win2_4.index ⟨(i 0).val / 2000, hN⟩ (1 : Fin 2) * 1 ≤ (i 1).val ∧ (i 1).val < win2_4.index ⟨(i 0).val / 2000, hN⟩ (1 : Fin 2) * 1 + 1
    rw [e9]; omega

/-- THE OUTPUT ARRAY after the region: `σ(relu(a + b) w + β)` of the arrays the region found. -/
theorem final2 (c : Dev nD) :
    (dat2 (F := Ideal) V c).arrAt 4 cfg2.N
      = Cert.GcnSpec.dense2 (F := Ideal) (V c main_v58) (V c main_v59) (V c main_arg6) (V c main_v60) :=
  (dat2 (F := Ideal) V c).arrAt_eq_of_cover 4 _ (fun t _ => flushed_eq V c t) cover

end Cert.KernelIdeal.Region2

end
-- ==== Proof.lean ====
/-
  A two-layer graph convolution with a logistic read-out, as a Pallas kernel program against its plain reference: the
  proof of `Cert.Claim` (Defs.lean) — both programs' frames, `preserves` (no rewrite was applied: the ledger is empty) and
  `algebraic`: at the ideal instance (floats are extended reals, every operation exact, a change of float format the
  identity) the two programs, run from memories that agree on the eight arguments, end with equal results.

  With `Â = D^{-1/2}(A + I)D^{-1/2}` the normalised adjacency of the edge list `e` (a gather of source rows, a scaling by
  `deg^{-1/2}[src] · deg^{-1/2}[dst]`, a scatter-add into target rows), both programs compute
      out = σ( relu( Â · (relu( Â · (x W₁) + b₁ ) W₂) + b₂ ) · w + β ),      σ(z) = 1 / (1 + exp (-z)).
  The kernel program runs the three dense layers as three regions over row blocks of 2000 nodes (the matrix unit's product
  into a zero accumulator, the bias row and the rectifier fused in, the logistic function as one operation) and the two
  products with `Â` as host operations between them; the reference is host operations only, and recomputes the degrees
  and the edge weights once per layer. No algebraic law is needed to join the two sides, and so no finiteness of the
  inputs: every product with `Â` is the SAME composition of gather, multiply and scatter-add on both sides, carried as one
  function of its operands and never opened; what is proved is
    · each region's output array is the whole-array dense layer of the arrays the region found (Region0/1/2: the
      matrix unit's product at an index is the sum over the contracted axis, as the host's `dot_general` is; the 50 row
      blocks tile the 100000 rows),
    · the kernel program's result buffer, read back through the regions and host stretches to the launch memory, is the
      composition above of the arguments (KernelValue, over the run of KernelRun),
    · the reference's result term is the same composition (RefSide: its two copies of the degree and weight computation
      are one function of `e`; a bias reshaped to a row is the bias broadcast to a row).
-/
import proofs.«131150_j62569083568519_1_alg».proof.Defs
import proofs.«131150_j62569083568519_1_alg».proof.Proof.Gen.Kernel
import proofs.«131150_j62569083568519_1_alg».proof.Proof.Gen.Kernel.Frame
import proofs.«131150_j62569083568519_1_alg».proof.Proof.Gen.KernelIdeal
import proofs.«131150_j62569083568519_1_alg».proof.Proof.Gen.KernelIdeal.Frame
import proofs.«131150_j62569083568519_1_alg».proof.Proof.Gen.ReferenceIdeal
import proofs.«131150_j62569083568519_1_alg».proof.Proof.Gen.Pre_finite_inputs
import proofs.«131150_j62569083568519_1_alg».proof.Proof.RefRun
import proofs.«131150_j62569083568519_1_alg».proof.Proof.RefRead
import proofs.«131150_j62569083568519_1_alg».proof.Proof.RefSide
import proofs.«131150_j62569083568519_1_alg».proof.Proof.KernelRun
import proofs.«131150_j62569083568519_1_alg».proof.Proof.KernelValue
import proofs.«131150_j62569083568519_1_alg».proof.Proof.Region0
import proofs.«131150_j62569083568519_1_alg».proof.Proof.Region1
import proofs.«131150_j62569083568519_1_alg».proof.Proof.Region2
import Idealize.ShloMosaic.Adequacy
import Idealize.ShloMosaic.Init

noncomputable section

namespace Cert.Proof

open Idealize.ShloMosaic Idealize.ShloMosaic.TcCoe Idealize.SL.Sem

/-! ## The frames and `preserves` -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)
/-- The ideal pass rewrote no operation. -/
theorem preserves : Cert.preserves_Kernel_KernelIdeal := trivial

/-! ## The kernel program's run, its result as a function of the arguments -/

/-- At the ideal instance the kernel program ends with its result buffer at the network's output of the arguments' launch
    contents, the arguments unchanged: the run with the result named, the result read back to the launch memory through
    the three regions' whole-array posts. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61)
          = Cert.GcnSpec.dense2 (F := Ideal)
              (Cert.KernelIdeal.HostK.agg32 (Cert.GcnSpec.dense1 (F := Ideal)
                (Cert.KernelIdeal.HostK.agg64 (Cert.GcnSpec.dense0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)))
                (Cert.KernelIdeal.HostK.row64 (m ((c.tc : Thread Cert.KernelIdeal.nD Cert.KernelIdeal.τ).loc Cert.KernelIdeal.main_arg3))) (m ((c.tc : Thread Cert.KernelIdeal.nD Cert.KernelIdeal.τ).loc Cert.KernelIdeal.main_arg4))) (m ((c.tc : Thread Cert.KernelIdeal.nD Cert.KernelIdeal.τ).loc Cert.KernelIdeal.main_arg1)))
              (Cert.KernelIdeal.HostK.row32 (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (Cert.KernelIdeal.HostK.row1 (m ((c.tc : Thread Cert.KernelIdeal.nD Cert.KernelIdeal.τ).loc Cert.KernelIdeal.main_arg7)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono
    (fun _ h c => ⟨(h c).1.trans (Cert.KernelIdeal.Boundary.W8_out m ρ c
        (fun V c => Cert.KernelIdeal.Region0.final0 V c) (fun V c => Cert.KernelIdeal.Region1.final1 V c)
        (fun V c => Cert.KernelIdeal.Region2.final2 V c)), (h c).2⟩)
    (Cert.KernelIdeal.RunNamed.run_named (F := Ideal) m ρ)

/-! ## The two programs end with equal results -/

theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v101_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.GcnSpec.RefSide.ref_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
